-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1536 : Shape := ⟨2, ![50000, 1536]⟩
abbrev S4096x1536 : Shape := ⟨2, ![4096, 1536]⟩
abbrev S65536 : Shape := ⟨1, ![65536]⟩
abbrev S1536x1536 : Shape := ⟨2, ![1536, 1536]⟩
abbrev S1536 : Shape := ⟨1, ![1536]⟩
abbrev S3072x512 : Shape := ⟨2, ![3072, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x1536 : S_.BroadcastsInDim S50000x1536 (![] : Fin 0 → Fin S50000x1536.rank)
  reducesTo_S50000x1536_S_d0_1 : S50000x1536.ReducesTo [0, 1] S_
  h_S_ : 0 < S_.numel
  bcast_S_S4096x1536 : S_.BroadcastsInDim S4096x1536 (![] : Fin 0 → Fin S4096x1536.rank)
  reducesTo_S4096x1536_S_d0_1 : S4096x1536.ReducesTo [0, 1] S_
  bcast_S_S1536x1536 : S_.BroadcastsInDim S1536x1536 (![] : Fin 0 → Fin S1536x1536.rank)
  reducesTo_S1536x1536_S_d0_1 : S1536x1536.ReducesTo [0, 1] S_
  bcast_S_S1536 : S_.BroadcastsInDim S1536 (![] : Fin 0 → Fin S1536.rank)
  reducesTo_S1536_S_d0 : S1536.ReducesTo [0] S_
  bcast_S_S3072x512 : S_.BroadcastsInDim S3072x512 (![] : Fin 0 → Fin S3072x512.rank)
  reducesTo_S3072x512_S_d0_1 : S3072x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg18 : FVec F S64 .f32) (main_arg19 : FVec F S64x1 .f32) (main_arg20 : FVec F S1 .f32) (main_v63 : IVec S_ 1) (main_v67 : IVec S_ 1) : IVec S_ 1 :=
  let main_v68 : IVec S_ 1 := andi main_v63 main_v67
  let main_v69 : FVec F S64 .f32 := Host.absf main_arg18
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x1 .f32 := Host.absf main_arg19
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg20
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg15 : FVec F S512x256 .f32) (main_arg16 : FVec F S256 .f32) (main_arg17 : FVec F S256x64 .f32) (main_arg18 : FVec F S64 .f32) (main_arg19 : FVec F S64x1 .f32) (main_arg20 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x256 .f32 := Host.absf main_arg15
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x64 .f32 := Host.absf main_arg17
  let main_cst_24 : FVec F S_ .f32 := constant S_ .f32 0x7F800000#32
  let main_v65 : FVec F S256x64 .f32 := broadcastInDim S256x64 ![] bcast_S_S256x64 main_cst_24
  let main_v66 : IVec S256x64 1 := cmpf .olt main_v64 main_v65
  let main_c_25 : IVec S_ 1 := constantI S_ 1 1#1
  let main_v67 : IVec S_ 1 := (fun x v => Host.reduce IntOp.andi x v reducesTo_S256x64_S_d0_1 h_S_) main_v66 main_c_25
  fn_part4 (F := F) main_arg18 main_arg19 main_arg20 main_v63 main_v67

def fn_part2 {F : FTy → Type} [FloatOps F] (main_arg11 : FVec F S1536 .f32) (main_arg12 : FVec F S1536x1536 .f32) (main_arg13 : FVec F S3072x512 .f32) (main_arg14 : FVec F S512 .f32) (main_arg15 : FVec F S512x256 .f32) (main_arg16 : FVec F S256 .f32) (main_arg17 : FVec F S256x64 .f32) (main_arg18 : FVec F S64 .f32) (main_arg19 : FVec F S64x1 .f32) (main_arg20 : FVec F S1 .f32) (main_v33 : IVec S_ 1) : IVec S_ 1 :=
  let main_v34 : FVec F S1536 .f32 := Host.absf main_arg11
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  let main_v39 : FVec F S1536x1536 .f32 := Host.absf main_arg12
  let main_cst_14 : FVec F S_ .f32 := constant S_ .f32 0x7F800000#32
  let main_v40 : FVec F S1536x1536 .f32 := broadcastInDim S1536x1536 ![] bcast_S_S1536x1536 main_cst_14
  let main_v41 : IVec S1536x1536 1 := cmpf .olt main_v39 main_v40
  let main_c_15 : IVec S_ 1 := constantI S_ 1 1#1
  let main_v42 : IVec S_ 1 := (fun x v => Host.reduce IntOp.andi x v reducesTo_S1536x1536_S_d0_1 h_S_) main_v41 main_c_15
  let main_v43 : IVec S_ 1 := andi main_v38 main_v42
  let main_v44 : FVec F S3072x512 .f32 := Host.absf main_arg13
  let main_cst_16 : FVec F S_ .f32 := constant S_ .f32 0x7F800000#32
  let main_v45 : FVec F S3072x512 .f32 := broadcastInDim S3072x512 ![] bcast_S_S3072x512 main_cst_16
  let main_v46 : IVec S3072x512 1 := cmpf .olt main_v44 main_v45
  let main_c_17 : IVec S_ 1 := constantI S_ 1 1#1
  let main_v47 : IVec S_ 1 := (fun x v => Host.reduce IntOp.andi x v reducesTo_S3072x512_S_d0_1 h_S_) main_v46 main_c_17
  let main_v48 : IVec S_ 1 := andi main_v43 main_v47
  let main_v49 : FVec F S512 .f32 := Host.absf main_arg14
  let main_cst_18 : FVec F S_ .f32 := constant S_ .f32 0x7F800000#32
  let main_v50 : FVec F S512 .f32 := broadcastInDim S512 ![] bcast_S_S512 main_cst_18
  fn_part3 (F := F) main_arg15 main_arg16 main_arg17 main_arg18 main_arg19 main_arg20 main_v48 main_v49 main_v50

def fn_part1 {F : FTy → Type} [FloatOps F] (main_arg8 : FVec F S1536 .f32) (main_arg9 : FVec F S1536x1536 .f32) (main_arg10 : FVec F S1536x1536 .f32) (main_arg11 : FVec F S1536 .f32) (main_arg12 : FVec F S1536x1536 .f32) (main_arg13 : FVec F S3072x512 .f32) (main_arg14 : FVec F S512 .f32) (main_arg15 : FVec F S512x256 .f32) (main_arg16 : FVec F S256 .f32) (main_arg17 : FVec F S256x64 .f32) (main_arg18 : FVec F S64 .f32) (main_arg19 : FVec F S64x1 .f32) (main_arg20 : FVec F S1 .f32) (main_v13 : IVec S_ 1) (main_v16 : IVec S1536x1536 1) : IVec S_ 1 :=
  let main_c_5 : IVec S_ 1 := constantI S_ 1 1#1
  let main_v17 : IVec S_ 1 := (fun x v => Host.reduce IntOp.andi x v reducesTo_S1536x1536_S_d0_1 h_S_) main_v16 main_c_5
  let main_v18 : IVec S_ 1 := andi main_v13 main_v17
  let main_v19 : FVec F S1536 .f32 := Host.absf main_arg8
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S1536x1536 .f32 := Host.absf main_arg9
  let main_cst_8 : FVec F S_ .f32 := constant S_ .f32 0x7F800000#32
  let main_v25 : FVec F S1536x1536 .f32 := broadcastInDim S1536x1536 ![] bcast_S_S1536x1536 main_cst_8
  let main_v26 : IVec S1536x1536 1 := cmpf .olt main_v24 main_v25
  let main_c_9 : IVec S_ 1 := constantI S_ 1 1#1
  let main_v27 : IVec S_ 1 := (fun x v => Host.reduce IntOp.andi x v reducesTo_S1536x1536_S_d0_1 h_S_) main_v26 main_c_9
  let main_v28 : IVec S_ 1 := andi main_v23 main_v27
  let main_v29 : FVec F S1536x1536 .f32 := Host.absf main_arg10
  let main_cst_10 : FVec F S_ .f32 := constant S_ .f32 0x7F800000#32
  let main_v30 : FVec F S1536x1536 .f32 := broadcastInDim S1536x1536 ![] bcast_S_S1536x1536 main_cst_10
  let main_v31 : IVec S1536x1536 1 := cmpf .olt main_v29 main_v30
  let main_c_11 : IVec S_ 1 := constantI S_ 1 1#1
  let main_v32 : IVec S_ 1 := (fun x v => Host.reduce IntOp.andi x v reducesTo_S1536x1536_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : FVec F S50000x1536 .f32) (main_arg1 : FVec F S4096x1536 .f32) (main_arg2 : FVec F S4096x1536 .f32) (main_arg3 : IVec S65536 32) (main_arg4 : IVec S65536 32) (main_arg5 : IVec S65536 32) (main_arg6 : IVec S65536 32) (main_arg7 : FVec F S1536x1536 .f32) (main_arg8 : FVec F S1536 .f32) (main_arg9 : FVec F S1536x1536 .f32) (main_arg10 : FVec F S1536x1536 .f32) (main_arg11 : FVec F S1536 .f32) (main_arg12 : FVec F S1536x1536 .f32) (main_arg13 : FVec F S3072x512 .f32) (main_arg14 : FVec F S512 .f32) (main_arg15 : FVec F S512x256 .f32) (main_arg16 : FVec F S256 .f32) (main_arg17 : FVec F S256x64 .f32) (main_arg18 : FVec F S64 .f32) (main_arg19 : FVec F S64x1 .f32) (main_arg20 : FVec F S1 .f32) : IVec S_ 1 :=
  let main_v0 : FVec F S50000x1536 .f32 := Host.absf main_arg0
  let main_cst : FVec F S_ .f32 := constant S_ .f32 0x7F800000#32
  let main_v1 : FVec F S50000x1536 .f32 := broadcastInDim S50000x1536 ![] bcast_S_S50000x1536 main_cst
  let main_v2 : IVec S50000x1536 1 := cmpf .olt main_v0 main_v1
  let main_c : IVec S_ 1 := constantI S_ 1 1#1
  let main_v3 : IVec S_ 1 := (fun x v => Host.reduce IntOp.andi x v reducesTo_S50000x1536_S_d0_1 h_S_) main_v2 main_c
  let main_v4 : FVec F S4096x1536 .f32 := Host.absf main_arg1
  let main_cst_0 : FVec F S_ .f32 := constant S_ .f32 0x7F800000#32
  let main_v5 : FVec F S4096x1536 .f32 := broadcastInDim S4096x1536 ![] bcast_S_S4096x1536 main_cst_0
  let main_v6 : IVec S4096x1536 1 := cmpf .olt main_v4 main_v5
  let main_c_1 : IVec S_ 1 := constantI S_ 1 1#1
  let main_v7 : IVec S_ 1 := (fun x v => Host.reduce IntOp.andi x v reducesTo_S4096x1536_S_d0_1 h_S_) main_v6 main_c_1
  let main_v8 : IVec S_ 1 := andi main_v3 main_v7
  let main_v9 : FVec F S4096x1536 .f32 := Host.absf main_arg2
  let main_cst_2 : FVec F S_ .f32 := constant S_ .f32 0x7F800000#32
  let main_v10 : FVec F S4096x1536 .f32 := broadcastInDim S4096x1536 ![] bcast_S_S4096x1536 main_cst_2
  let main_v11 : IVec S4096x1536 1 := cmpf .olt main_v9 main_v10
  let main_c_3 : IVec S_ 1 := constantI S_ 1 1#1
  let main_v12 : IVec S_ 1 := (fun x v => Host.reduce IntOp.andi x v reducesTo_S4096x1536_S_d0_1 h_S_) main_v11 main_c_3
  let main_v13 : IVec S_ 1 := andi main_v8 main_v12
  let main_v14 : FVec F S1536x1536 .f32 := Host.absf main_arg7
  let main_cst_4 : FVec F S_ .f32 := constant S_ .f32 0x7F800000#32
  let main_v15 : FVec F S1536x1536 .f32 := broadcastInDim S1536x1536 ![] bcast_S_S1536x1536 main_cst_4
  let main_v16 : IVec S1536x1536 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S50000x1536 : Shape := ⟨2, ![50000, 1536]⟩
abbrev S4096x1536 : Shape := ⟨2, ![4096, 1536]⟩
abbrev S65536 : Shape := ⟨1, ![65536]⟩
abbrev S1536x1536 : Shape := ⟨2, ![1536, 1536]⟩
abbrev S1536 : Shape := ⟨1, ![1536]⟩
abbrev S3072x512 : Shape := ⟨2, ![3072, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S65536x1 : Shape := ⟨2, ![65536, 1]⟩
abbrev S65536x1536 : Shape := ⟨2, ![65536, 1536]⟩
abbrev S1x1536 : Shape := ⟨2, ![1, 1536]⟩
abbrev S512x1536 : Shape := ⟨2, ![512, 1536]⟩
abbrev S1536x512 : Shape := ⟨2, ![1536, 512]⟩
abbrev S1x512 : Shape := ⟨2, ![1, 512]⟩
abbrev S1x256 : Shape := ⟨2, ![1, 256]⟩
abbrev S1x64 : Shape := ⟨2, ![1, 64]⟩
abbrev S1x1 : Shape := ⟨2, ![1, 1]⟩
abbrev S4096 : Shape := ⟨1, ![4096]⟩
abbrev S512x512 : Shape := ⟨2, ![512, 512]⟩
abbrev S512x64 : Shape := ⟨2, ![512, 64]⟩
abbrev S512x1 : Shape := ⟨2, ![512, 1]⟩

abbrev nBuf : Space → Nat
  | .hbm => 67
  | .vmem => 33
  | .smem => 0
  | _ => 0

abbrev bufTy : (tb : Table) → Fin (tcTables nBuf tb) → BufTy
  | .hbm, ⟨0, _⟩ => ⟨S50000x1536, .f32⟩
  | .hbm, ⟨1, _⟩ => ⟨S4096x1536, .f32⟩
  | .hbm, ⟨2, _⟩ => ⟨S4096x1536, .f32⟩
  | .hbm, ⟨3, _⟩ => ⟨S65536, .i32⟩
  | .hbm, ⟨4, _⟩ => ⟨S65536, .i32⟩
  | .hbm, ⟨5, _⟩ => ⟨S65536, .i32⟩
  | .hbm, ⟨6, _⟩ => ⟨S65536, .i32⟩
  | .hbm, ⟨7, _⟩ => ⟨S1536x1536, .f32⟩
  | .hbm, ⟨8, _⟩ => ⟨S1536, .f32⟩
  | .hbm, ⟨9, _⟩ => ⟨S1536x1536, .f32⟩
  | .hbm, ⟨10, _⟩ => ⟨S1536x1536, .f32⟩
  | .hbm, ⟨11, _⟩ => ⟨S1536, .f32⟩
  | .hbm, ⟨12, _⟩ => ⟨S1536x1536, .f32⟩
  | .hbm, ⟨13, _⟩ => ⟨S3072x512, .f32⟩
  | .hbm, ⟨14, _⟩ => ⟨S512, .f32⟩
  | .hbm, ⟨15, _⟩ => ⟨S512x256, .f32⟩
  | .hbm, ⟨16, _⟩ => ⟨S256, .f32⟩
  | .hbm, ⟨17, _⟩ => ⟨S256x64, .f32⟩
  | .hbm, ⟨18, _⟩ => ⟨S64, .f32⟩
  | .hbm, ⟨19, _⟩ => ⟨S64x1, .f32⟩
  | .hbm, ⟨20, _⟩ => ⟨S1, .f32⟩
  | .hbm, ⟨21, _⟩ => ⟨S_, .i32⟩
  | .hbm, ⟨22, _⟩ => ⟨S65536, .i32⟩
  | .hbm, ⟨23, _⟩ => ⟨S65536, .i1⟩
  | .hbm, ⟨24, _⟩ => ⟨S_, .i32⟩
  | .hbm, ⟨25, _⟩ => ⟨S65536, .i32⟩
  | .hbm, ⟨26, _⟩ => ⟨S65536, .i32⟩
  | .hbm, ⟨27, _⟩ => ⟨S65536, .i32⟩
  | .hbm, ⟨28, _⟩ => ⟨S65536x1, .i32⟩
  | .hbm, ⟨29, _⟩ => ⟨S65536x1536, .f32⟩
  | .hbm, ⟨30, _⟩ => ⟨S_, .f32⟩
  | .hbm, ⟨31, _⟩ => ⟨S4096x1536, .f32⟩
  | .hbm, ⟨32, _⟩ => ⟨S65536x1, .i32⟩
  | .hbm, ⟨33, _⟩ => ⟨S4096x1536, .f32⟩
  | .hbm, ⟨34, _⟩ => ⟨S_, .i32⟩
  | .hbm, ⟨35, _⟩ => ⟨S65536, .i32⟩
  | .hbm, ⟨36, _⟩ => ⟨S65536, .i1⟩
  | .hbm, ⟨37, _⟩ => ⟨S_, .i32⟩
  | .hbm, ⟨38, _⟩ => ⟨S65536, .i32⟩
  | .hbm, ⟨39, _⟩ => ⟨S65536, .i32⟩
  | .hbm, ⟨40, _⟩ => ⟨S65536, .i32⟩
  | .hbm, ⟨41, _⟩ => ⟨S65536x1, .i32⟩
  | .hbm, ⟨42, _⟩ => ⟨S65536x1536, .f32⟩
  | .hbm, ⟨43, _⟩ => ⟨S_, .f32⟩
  | .hbm, ⟨44, _⟩ => ⟨S4096x1536, .f32⟩
  | .hbm, ⟨45, _⟩ => ⟨S65536x1, .i32⟩
  | .hbm, ⟨46, _⟩ => ⟨S4096x1536, .f32⟩
  | .hbm, ⟨47, _⟩ => ⟨S1536x1536, .bf16⟩
  | .hbm, ⟨48, _⟩ => ⟨S1536x1536, .bf16⟩
  | .hbm, ⟨49, _⟩ => ⟨S1536x1536, .bf16⟩
  | .hbm, ⟨50, _⟩ => ⟨S1536x1536, .bf16⟩
  | .hbm, ⟨51, _⟩ => ⟨S1x1536, .f32⟩
  | .hbm, ⟨52, _⟩ => ⟨S1x1536, .f32⟩
  | .hbm, ⟨53, _⟩ => ⟨S4096x1536, .f32⟩
  | .hbm, ⟨54, _⟩ => ⟨S4096x1536, .f32⟩
  | .hbm, ⟨55, _⟩ => ⟨S1536x512, .f32⟩
  | .hbm, ⟨56, _⟩ => ⟨S1536x512, .bf16⟩
  | .hbm, ⟨57, _⟩ => ⟨S1536x512, .f32⟩
  | .hbm, ⟨58, _⟩ => ⟨S1536x512, .bf16⟩
  | .hbm, ⟨59, _⟩ => ⟨S512x256, .bf16⟩
  | .hbm, ⟨60, _⟩ => ⟨S256x64, .bf16⟩
  | .hbm, ⟨61, _⟩ => ⟨S64x1, .bf16⟩
  | .hbm, ⟨62, _⟩ => ⟨S1x512, .f32⟩
  | .hbm, ⟨63, _⟩ => ⟨S1x256, .f32⟩
  | .hbm, ⟨64, _⟩ => ⟨S1x64, .f32⟩
  | .hbm, ⟨65, _⟩ => ⟨S1x1, .f32⟩
  | .hbm, ⟨66, _⟩ => ⟨S4096, .f32⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S1536x1536, .bf16⟩
  | .local _ .vmem, ⟨5, _⟩ => ⟨S1x1536, .f32⟩
  | .local _ .vmem, ⟨6, _⟩ => ⟨S1536x1536, .bf16⟩
  | .local _ .vmem, ⟨7, _⟩ => ⟨S512x1536, .f32⟩
  | .local _ .vmem, ⟨8, _⟩ => ⟨S512x1536, .f32⟩
  | .local _ .vmem, ⟨9, _⟩ => ⟨S512x1536, .f32⟩
  | .local _ .vmem, ⟨10, _⟩ => ⟨S512x1536, .f32⟩
  | .local _ .vmem, ⟨11, _⟩ => ⟨S512x1536, .f32⟩
  | .local _ .vmem, ⟨12, _⟩ => ⟨S512x1536, .f32⟩
  | .local _ .vmem, ⟨13, _⟩ => ⟨S1536x1536, .bf16⟩
  | .local _ .vmem, ⟨14, _⟩ => ⟨S1x1536, .f32⟩
  | .local _ .vmem, ⟨15, _⟩ => ⟨S1536x1536, .bf16⟩
  | .local _ .vmem, ⟨16, _⟩ => ⟨S512x1536, .f32⟩
  | .local _ .vmem, ⟨17, _⟩ => ⟨S512x1536, .f32⟩
  | .local _ .vmem, ⟨18, _⟩ => ⟨S512x1536, .f32⟩
  | .local _ .vmem, ⟨19, _⟩ => ⟨S512x1536, .f32⟩
  | .local _ .vmem, ⟨20, _⟩ => ⟨S512x1536, .f32⟩
  | .local _ .vmem, ⟨21, _⟩ => ⟨S512x1536, .f32⟩
  | .local _ .vmem, ⟨22, _⟩ => ⟨S1536x512, .bf16⟩
  | .local _ .vmem, ⟨23, _⟩ => ⟨S1536x512, .bf16⟩
  | .local _ .vmem, ⟨24, _⟩ => ⟨S1x512, .f32⟩
  | .local _ .vmem, ⟨25, _⟩ => ⟨S512x256, .bf16⟩
  | .local _ .vmem, ⟨26, _⟩ => ⟨S1x256, .f32⟩
  | .local _ .vmem, ⟨27, _⟩ => ⟨S256x64, .bf16⟩
  | .local _ .vmem, ⟨28, _⟩ => ⟨S1x64, .f32⟩
  | .local _ .vmem, ⟨29, _⟩ => ⟨S64x1, .bf16⟩
  | .local _ .vmem, ⟨30, _⟩ => ⟨S1x1, .f32⟩
  | .local _ .vmem, ⟨31, _⟩ => ⟨S512, .f32⟩
  | .local _ .vmem, ⟨32, _⟩ => ⟨S512, .f32⟩
  | _, _ => ⟨S50000x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c_1 : Ref sig .tc := ⟨.hbm, 34, rfl⟩
abbrev main_v10 : Ref sig .tc := ⟨.hbm, 35, rfl⟩
abbrev main_v11 : Ref sig .tc := ⟨.hbm, 36, rfl⟩
abbrev main_c_2 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_3 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg11_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem11_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1536x1536 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1536 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1536x1536 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S512x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1536 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1536x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1536x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x64 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x1 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S512 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S4096x1536 : S_.BroadcastsInDim S4096x1536 (![] : Fin 0 → Fin S4096x1536.rank)
  bitsLt_bf16_f32 : FTy.bits .bf16 < FTy.bits .f32
  shapeCasts_S1536_S1x1536 : S1536.ShapeCasts S1x1536
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536x1536_S1536x1536_0_0 : ∀ a, (![0, 0] : Fin 2 → Nat) a + S1536x1536.size a ≤ S1536x1536.size a
  h_S1536x1536 : 0 < S1536x1536.numel
  shapeCasts_S1536x1536_S1536x1536 : S1536x1536.ShapeCasts S1536x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  slices_S3072x512_S1536x512_0_0 : S3072x512.Slices ![0, 0] S1536x512
  slices_S3072x512_S1536x512_1536_0 : S3072x512.Slices ![1536, 0] S1536x512
  shapeCasts_S512_S1x512 : S512.ShapeCasts S1x512
  shapeCasts_S256_S1x256 : S256.ShapeCasts S1x256
  shapeCasts_S64_S1x64 : S64.ShapeCasts S1x64
  shapeCasts_S1_S1x1 : S1.ShapeCasts S1x1
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  shapeCasts_S512x1_S512 : S512x1.ShapeCasts S512
  inb_S512_S512_0 : ∀ a, (![0] : Fin 1 → Nat) a + S512.size a ≤ S512.size a
  h_S512 : 0 < S512.numel
  gather_S50000x1536_S65536x1_S65536x1536_1_0_n_n_0_1_11536_wf : GatherDims.WF S50000x1536 S65536x1 S65536x1536 [1] [0] [] [0] [] 1 ![1, 1536]
  scatter_S4096x1536_S65536x1_S65536x1536_1_0_0_1_wf : ScatterDims.WF S4096x1536 S65536x1 S65536x1536 [1] [0] [0] 1
  dot_S512x1536_S1536x1536_S512x1536_1_0_0_1_n_n_wf : DotDims.WF S512x1536 S1536x1536 S512x1536 [1] [0] [0] [1] [] []
  dot_S512x1536_S1536x512_S512x512_1_0_0_1_n_n_wf : DotDims.WF S512x1536 S1536x512 S512x512 [1] [0] [0] [1] [] []
  dot_S512x512_S512x256_S512x256_1_0_0_1_n_n_wf : DotDims.WF S512x512 S512x256 S512x256 [1] [0] [0] [1] [] []
  dot_S512x256_S256x64_S512x64_1_0_0_1_n_n_wf : DotDims.WF S512x256 S256x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1536.size a ≤ S4096x1536.size a
  hwx0_0 : ∀ i : grid0.Coords, EltTy.bits .f32 = 32 ∨ (Rect.block (s := S4096x1536) S512x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S4096x1536.size a
  hwx0_1 : ∀ i : grid0.Coords, EltTy.bits .f32 = 32 ∨ (Rect.block (s := S4096x1536) S512x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x1536.size a ≤ S1536x1536.size a
  hwx0_2 : ∀ i : grid0.Coords, EltTy.bits .bf16 = 32 ∨ (Rect.block (s := S1536x1536) S1536x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1536x1536.size a ≤ S1536x1536.size a
  hwx0_4 : ∀ i : grid0.Coords, EltTy.bits .bf16 = 32 ∨ (Rect.block (s := S1536x1536) S1536x1536.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1536.size a ≤ S4096x1536.size a
  hwx0_5 : ∀ i : grid0.Coords, EltTy.bits .f32 = 32 ∨ (Rect.block (s := S4096x1536) S512x1536.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1536.size a ≤ S4096x1536.size a
  hwx1_0 : ∀ i : grid1.Coords, EltTy.bits .f32 = 32 ∨ (Rect.block (s := S4096x1536) S512x1536.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1536.size a ≤ S4096x1536.size a
  hwx1_1 : ∀ i : grid1.Coords, EltTy.bits .f32 = 32 ∨ (Rect.block (s := S4096x1536) S512x1536.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1536x1536.size a ≤ S1536x1536.size a
  hwx1_2 : ∀ i : grid1.Coords, EltTy.bits .bf16 = 32 ∨ (Rect.block (s := S1536x1536) S1536x1536.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1536.size a ≤ S1x1536.size a
  hwx1_3 : ∀ i : grid1.Coords, EltTy.bits .f32 = 32 ∨ (Rect.block (s := S1x1536) S1x1536.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1536x1536.size a ≤ S1536x1536.size a
  hwx1_4 : ∀ i : grid1.Coords, EltTy.bits .bf16 = 32 ∨ (Rect.block (s := S1536x1536) S1536x1536.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1536.size a ≤ S4096x1536.size a
  hwx1_5 : ∀ i : grid1.Coords, EltTy.bits .f32 = 32 ∨ (Rect.block (s := S4096x1536) S512x1536.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1536.size a ≤ S4096x1536.size a
  hwx2_0 : ∀ i : grid2.Coords, EltTy.bits .f32 = 32 ∨ (Rect.block (s := S4096x1536) S512x1536.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1536.size a ≤ S4096x1536.size a
  hwx2_1 : ∀ i : grid2.Coords, EltTy.bits .f32 = 32 ∨ (Rect.block (s := S4096x1536) S512x1536.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1536x512.size a ≤ S1536x512.size a
  hwx2_2 : ∀ i : grid2.Coords, EltTy.bits .bf16 = 32 ∨ (Rect.block (s := S1536x512) S1536x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1536x512.size a ≤ S1536x512.size a
  hwx2_3 : ∀ i : grid2.Coords, EltTy.bits .bf16 = 32 ∨ (Rect.block (s := S1536x512) S1536x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x256.size a ≤ S512x256.size a
  hwx2_5 : ∀ i : grid2.Coords, EltTy.bits .bf16 = 32 ∨ (Rect.block (s := S512x256) S512x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x64.size a ≤ S256x64.size a
  hwx2_7 : ∀ i : grid2.Coords, EltTy.bits .bf16 = 32 ∨ (Rect.block (s := S256x64) S256x64.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x1.size a ≤ S64x1.size a
  hwx2_9 : ∀ i : grid2.Coords, EltTy.bits .bf16 = 32 ∨ (Rect.block (s := S64x1) S64x1.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S512.size a ≤ S4096.size a
  hwx2_11 : ∀ i : grid2.Coords, EltTy.bits .f32 = 32 ∨ (Rect.block (s := S4096) S512.size (cc2_transform_11 i) (hinb2_11 i)).WholeWords (EltTy.packing .f32)

variable [Facts₀]

def gather_S50000x1536_S65536x1_S65536x1536_1_0_n_n_0_1_11536 : GatherDims S50000x1536 S65536x1 S65536x1536 where
  offsetDims := [1]
  collapsedSliceDims := [0]
  operandBatchingDims := []
  startIndicesBatchingDims := []
  startIndexMap := [0]
  indexVectorDim := 1
  sliceSizes := ![1, 1536]
  wf := gather_S50000x1536_S65536x1_S65536x1536_1_0_n_n_0_1_11536_wf
def scatter_S4096x1536_S65536x1_S65536x1536_1_0_0_1 : ScatterDims S4096x1536 S65536x1 S65536x1536 where
  updateWindowDims := [1]
  insertedWindowDims := [0]
  scatterDimsToOperandDims := [0]
  indexVectorDim := 1
  wf := scatter_S4096x1536_S65536x1_S65536x1536_1_0_0_1_wf
def dot_S512x1536_S1536x1536_S512x1536_1_0_0_1_n_n : DotDims S512x1536 S1536x1536 S512x1536 where
  lhsContracting := [1]
  rhsContracting := [0]
  lhsNonContracting := [0]
  rhsNonContracting := [1]
  lhsBatch := []
  rhsBatch := []
  wf := dot_S512x1536_S1536x1536_S512x1536_1_0_0_1_n_n_wf
def dot_S512x1536_S1536x512_S512x512_1_0_0_1_n_n : DotDims S512x1536 S1536x512 S512x512 where
  lhsContracting := [1]
  rhsContracting := [0]
  lhsNonContracting := [0]
  rhsNonContracting := [1]
  lhsBatch := []
  rhsBatch := []
  wf := dot_S512x1536_S1536x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_v9) S512x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1536x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1536x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S512x1536.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S512x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x1536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1536x1536.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x1536.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1536x1536.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S512x1536.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S512x1536.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S512x1536.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1536x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1536x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S512x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v33) S256x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v37) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v34) S64x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v38) S1x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v39) S512.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S50000x1536 : Shape := ⟨2, ![50000, 1536]⟩
abbrev S4096x1536 : Shape := ⟨2, ![4096, 1536]⟩
abbrev S65536 : Shape := ⟨1, ![65536]⟩
abbrev S1536x1536 : Shape := ⟨2, ![1536, 1536]⟩
abbrev S1536 : Shape := ⟨1, ![1536]⟩
abbrev S3072x512 : Shape := ⟨2, ![3072, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S65536x1 : Shape := ⟨2, ![65536, 1]⟩
abbrev S65536x1536 : Shape := ⟨2, ![65536, 1536]⟩
abbrev S1x1536 : Shape := ⟨2, ![1, 1536]⟩
abbrev S4096x3072 : Shape := ⟨2, ![4096, 3072]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩
abbrev S4096x64 : Shape := ⟨2, ![4096, 64]⟩
abbrev S1x64 : Shape := ⟨2, ![1, 64]⟩
abbrev S4096x1 : Shape := ⟨2, ![4096, 1]⟩
abbrev S1x1 : Shape := ⟨2, ![1, 1]⟩
abbrev S4096 : Shape := ⟨1, ![4096]⟩

abbrev nBuf : Space → Nat
  | .hbm => 92
  | .vmem => 0
  | .smem => 0
  | _ => 0

abbrev bufTy : (tb : Table) → Fin (tcTables nBuf tb) → BufTy
  | .hbm, ⟨0, _⟩ => ⟨S50000x1536, .f32⟩
  | .hbm, ⟨1, _⟩ => ⟨S4096x1536, .f32⟩
  | .hbm, ⟨2, _⟩ => ⟨S4096x1536, .f32⟩
  | .hbm, ⟨3, _⟩ => ⟨S65536, .i32⟩
  | .hbm, ⟨4, _⟩ => ⟨S65536, .i32⟩
  | .hbm, ⟨5, _⟩ => ⟨S65536, .i32⟩
  | .hbm, ⟨6, _⟩ => ⟨S65536, .i32⟩
  | .hbm, ⟨7, _⟩ => ⟨S1536x1536, .f32⟩
  | .hbm, ⟨8, _⟩ => ⟨S1536, .f32⟩
  | .hbm, ⟨9, _⟩ => ⟨S1536x1536, .f32⟩
  | .hbm, ⟨10, _⟩ => ⟨S1536x1536, .f32⟩
  | .hbm, ⟨11, _⟩ => ⟨S1536, .f32⟩
  | .hbm, ⟨12, _⟩ => ⟨S1536x1536, .f32⟩
  | .hbm, ⟨13, _⟩ => ⟨S3072x512, .f32⟩
  | .hbm, ⟨14, _⟩ => ⟨S512, .f32⟩
  | .hbm, ⟨15, _⟩ => ⟨S512x256, .f32⟩
  | .hbm, ⟨16, _⟩ => ⟨S256, .f32⟩
  | .hbm, ⟨17, _⟩ => ⟨S256x64, .f32⟩
  | .hbm, ⟨18, _⟩ => ⟨S64, .f32⟩
  | .hbm, ⟨19, _⟩ => ⟨S64x1, .f32⟩
  | .hbm, ⟨20, _⟩ => ⟨S1, .f32⟩
  | .hbm, ⟨21, _⟩ => ⟨S_, .i32⟩
  | .hbm, ⟨22, _⟩ => ⟨S65536, .i32⟩
  | .hbm, ⟨23, _⟩ => ⟨S65536, .i1⟩
  | .hbm, ⟨24, _⟩ => ⟨S_, .i32⟩
  | .hbm, ⟨25, _⟩ => ⟨S65536, .i32⟩
  | .hbm, ⟨26, _⟩ => ⟨S65536, .i32⟩
  | .hbm, ⟨27, _⟩ => ⟨S65536, .i32⟩
  | .hbm, ⟨28, _⟩ => ⟨S65536x1, .i32⟩
  | .hbm, ⟨29, _⟩ => ⟨S65536x1536, .f32⟩
  | .hbm, ⟨30, _⟩ => ⟨S_, .f32⟩
  | .hbm, ⟨31, _⟩ => ⟨S4096x1536, .f32⟩
  | .hbm, ⟨32, _⟩ => ⟨S65536x1, .i32⟩
  | .hbm, ⟨33, _⟩ => ⟨S4096x1536, .f32⟩
  | .hbm, ⟨34, _⟩ => ⟨S4096x1536, .f32⟩
  | .hbm, ⟨35, _⟩ => ⟨S1x1536, .f32⟩
  | .hbm, ⟨36, _⟩ => ⟨S4096x1536, .f32⟩
  | .hbm, ⟨37, _⟩ => ⟨S4096x1536, .f32⟩
  | .hbm, ⟨38, _⟩ => ⟨S4096x1536, .f32⟩
  | .hbm, ⟨39, _⟩ => ⟨S4096x1536, .f32⟩
  | .hbm, ⟨40, _⟩ => ⟨S_, .f32⟩
  | .hbm, ⟨41, _⟩ => ⟨S4096x1536, .f32⟩
  | .hbm, ⟨42, _⟩ => ⟨S4096x1536, .f32⟩
  | .hbm, ⟨43, _⟩ => ⟨S_, .i32⟩
  | .hbm, ⟨44, _⟩ => ⟨S65536, .i32⟩
  | .hbm, ⟨45, _⟩ => ⟨S65536, .i1⟩
  | .hbm, ⟨46, _⟩ => ⟨S_, .i32⟩
  | .hbm, ⟨47, _⟩ => ⟨S65536, .i32⟩
  | .hbm, ⟨48, _⟩ => ⟨S65536, .i32⟩
  | .hbm, ⟨49, _⟩ => ⟨S65536, .i32⟩
  | .hbm, ⟨50, _⟩ => ⟨S65536x1, .i32⟩
  | .hbm, ⟨51, _⟩ => ⟨S65536x1536, .f32⟩
  | .hbm, ⟨52, _⟩ => ⟨S_, .f32⟩
  | .hbm, ⟨53, _⟩ => ⟨S4096x1536, .f32⟩
  | .hbm, ⟨54, _⟩ => ⟨S65536x1, .i32⟩
  | .hbm, ⟨55, _⟩ => ⟨S4096x1536, .f32⟩
  | .hbm, ⟨56, _⟩ => ⟨S4096x1536, .f32⟩
  | .hbm, ⟨57, _⟩ => ⟨S1x1536, .f32⟩
  | .hbm, ⟨58, _⟩ => ⟨S4096x1536, .f32⟩
  | .hbm, ⟨59, _⟩ => ⟨S4096x1536, .f32⟩
  | .hbm, ⟨60, _⟩ => ⟨S4096x1536, .f32⟩
  | .hbm, ⟨61, _⟩ => ⟨S4096x1536, .f32⟩
  | .hbm, ⟨62, _⟩ => ⟨S_, .f32⟩
  | .hbm, ⟨63, _⟩ => ⟨S4096x1536, .f32⟩
  | .hbm, ⟨64, _⟩ => ⟨S4096x1536, .f32⟩
  | .hbm, ⟨65, _⟩ => ⟨S4096x3072, .f32⟩
  | .hbm, ⟨66, _⟩ => ⟨S4096x512, .f32⟩
  | .hbm, ⟨67, _⟩ => ⟨S1x512, .f32⟩
  | .hbm, ⟨68, _⟩ => ⟨S4096x512, .f32⟩
  | .hbm, ⟨69, _⟩ => ⟨S4096x512, .f32⟩
  | .hbm, ⟨70, _⟩ => ⟨S_, .f32⟩
  | .hbm, ⟨71, _⟩ => ⟨S4096x512, .f32⟩
  | .hbm, ⟨72, _⟩ => ⟨S4096x512, .f32⟩
  | .hbm, ⟨73, _⟩ => ⟨S4096x256, .f32⟩
  | .hbm, ⟨74, _⟩ => ⟨S1x256, .f32⟩
  | .hbm, ⟨75, _⟩ => ⟨S4096x256, .f32⟩
  | .hbm, ⟨76, _⟩ => ⟨S4096x256, .f32⟩
  | .hbm, ⟨77, _⟩ => ⟨S_, .f32⟩
  | .hbm, ⟨78, _⟩ => ⟨S4096x256, .f32⟩
  | .hbm, ⟨79, _⟩ => ⟨S4096x256, .f32⟩
  | .hbm, ⟨80, _⟩ => ⟨S4096x64, .f32⟩
  | .hbm, ⟨81, _⟩ => ⟨S1x64, .f32⟩
  | .hbm, ⟨82, _⟩ => ⟨S4096x64, .f32⟩
  | .hbm, ⟨83, _⟩ => ⟨S4096x64, .f32⟩
  | .hbm, ⟨84, _⟩ => ⟨S_, .f32⟩
  | .hbm, ⟨85, _⟩ => ⟨S4096x64, .f32⟩
  | .hbm, ⟨86, _⟩ => ⟨S4096x64, .f32⟩
  | .hbm, ⟨87, _⟩ => ⟨S4096x1, .f32⟩
  | .hbm, ⟨88, _⟩ => ⟨S1x1, .f32⟩
  | .hbm, ⟨89, _⟩ => ⟨S4096x1, .f32⟩
  | .hbm, ⟨90, _⟩ => ⟨S4096x1, .f32⟩
  | .hbm, ⟨91, _⟩ => ⟨S4096, .f32⟩
  | _, _ => ⟨S50000x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_call0_cst : Ref sig .tc := ⟨.hbm, 40, rfl⟩
abbrev main_call0_v0 : Ref sig .tc := ⟨.hbm, 41, rfl⟩
abbrev main_v16 : Ref sig .tc := ⟨.hbm, 42, rfl⟩
abbrev main_c_1 : Ref sig .tc := ⟨.hbm, 43, rfl⟩
abbrev main_v17 : Ref sig .tc := ⟨.hbm, 44, rfl⟩
abbrev main_v18 : Ref sig .tc := ⟨.hbm, 45, rfl⟩
abbrev main_c_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_call1_cst : Ref sig .tc := ⟨.hbm, 62, rfl⟩
abbrev main_call1_v0 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_call2_cst : Ref sig .tc := ⟨.hbm, 70, rfl⟩
abbrev main_call2_v0 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_call3_cst : Ref sig .tc := ⟨.hbm, 77, rfl⟩
abbrev main_call3_v0 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call4_cst : Ref sig .tc := ⟨.hbm, 84, rfl⟩
abbrev main_call4_v0 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S4096x1536 : S_.BroadcastsInDim S4096x1536 (![] : Fin 0 → Fin S4096x1536.rank)
  bcast_S1536_S1x1536_1 : S1536.BroadcastsInDim S1x1536 (![1] : Fin 1 → Fin S1x1536.rank)
  bcast_S1x1536_S4096x1536_0_1 : S1x1536.BroadcastsInDim S4096x1536 (![0, 1] : Fin 2 → Fin S4096x1536.rank)
  concatenates_S4096x1536_S4096x1536_S4096x3072_d1 : Shape.Concatenates [S4096x1536, S4096x1536] S4096x3072 1
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  gather_S50000x1536_S65536x1_S65536x1536_1_0_n_n_0_1_11536_wf : GatherDims.WF S50000x1536 S65536x1 S65536x1536 [1] [0] [] [0] [] 1 ![1, 1536]
  scatter_S4096x1536_S65536x1_S65536x1536_1_0_0_1_wf : ScatterDims.WF S4096x1536 S65536x1 S65536x1536 [1] [0] [0] 1
  dot_S4096x1536_S1536x1536_S4096x1536_1_0_0_1_n_n_wf : DotDims.WF S4096x1536 S1536x1536 S4096x1536 [1] [0] [0] [1] [] []
  dot_S4096x3072_S3072x512_S4096x512_1_0_0_1_n_n_wf : DotDims.WF S4096x3072 S3072x512 S4096x512 [1] [0] [0] [1] [] []
  dot_S4096x512_S512x256_S4096x256_1_0_0_1_n_n_wf : DotDims.WF S4096x512 S512x256 S4096x256 [1] [0] [0] [1] [] []
  dot_S4096x256_S256x64_S4096x64_1_0_0_1_n_n_wf : DotDims.WF S4096x256 S256x64 S4096x64 [1] [0] [0] [1] [] []
  dot_S4096x64_S64x1_S4096x1_1_0_0_1_n_n_wf : DotDims.WF S4096x64 S64x1 S4096x1 [1] [0] [0] [1] [] []

variable [Facts₀]

def gather_S50000x1536_S65536x1_S65536x1536_1_0_n_n_0_1_11536 : GatherDims S50000x1536 S65536x1 S65536x1536 where
  offsetDims := [1]
  collapsedSliceDims := [0]
  operandBatchingDims := []
  startIndicesBatchingDims := []
  startIndexMap := [0]
  indexVectorDim := 1
  sliceSizes := ![1, 1536]
  wf := gather_S50000x1536_S65536x1_S65536x1536_1_0_n_n_0_1_11536_wf
def scatter_S4096x1536_S65536x1_S65536x1536_1_0_0_1 : ScatterDims S4096x1536 S65536x1 S65536x1536 where
  updateWindowDims := [1]
  insertedWindowDims := [0]
  scatterDimsToOperandDims := [0]
  indexVectorDim := 1
  wf := scatter_S4096x1536_S65536x1_S65536x1536_1_0_0_1_wf
def dot_S4096x1536_S1536x1536_S4096x1536_1_0_0_1_n_n : DotDims S4096x1536 S1536x1536 S4096x1536 where
  lhsContracting := [1]
  rhsContracting := [0]
  lhsNonContracting := [0]
  rhsNonContracting := [1]
  lhsBatch := []
  rhsBatch := []
  wf := dot_S4096x1536_S1536x1536_S4096x1536_1_0_0_1_n_n_wf
def dot_S4096x3072_S3072x512_S4096x512_1_0_0_1_n_n : DotDims S4096x3072 S3072x512 S4096x512 where
  lhsContracting := [1]
  rhsContracting := [0]
  lhsNonContracting := [0]
  rhsNonContracting := [1]
  lhsBatch := []
  rhsBatch := []
  wf := dot_S4096x3072_S3072x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.LibDenseLayers.lean ====
/-
  Dense layers of a row-wise network as sums, at the exact instance (floats read as extended reals).

  A layer here sends matrices of M rows to a matrix of M rows; entry (r, j) of the result reads row r of the matrix
  operands and column j of the weights. Stated for any number of rows, so one statement serves a block of rows and the
  whole array. Three things are here: the layer functions themselves, as sums over the contracted coordinate; the two
  spellings that compute them (a tile's, on the matrix unit into a zero accumulator with the bias as one row repeated down
  the tile; the whole array's, with the host's product and the bias vector broadcast twice); and the law that a product
  against two matrices laid side by side is the sum of the two products against the upper and lower halves of the weights.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

open scoped BigOperators

namespace DenseLayers

open Idealize.ShloMosaic Idealize.ShloMosaic.ValueIdx

variable {M m k k' n : ℕ}

/-- A matrix of extended reals. -/
abbrev Mat (m n : ℕ) : Type := (⟨2, ![m, n]⟩ : Shape).Idx → EReal

/-- Row a of A against column b of B: the sum over the contracted coordinate of the products of the entries. -/
def rowCol (A : Mat m k) (B : Mat k n) (a : Fin m) (b : Fin n) : EReal := ∑ c : Fin k, A (ix2 a c) * B (ix2 c b)

/-- max(A·W + X·W' + bias, 0): two products into one result, a bias per column, the negative part cut off. -/
def pair (A : Mat M k) (X : Mat M k') (W : Mat k n) (W' : Mat k' n) (bias : Fin n → EReal) : Mat M n :=
  fun i => max (rowCol A W (i 0) (i 1) + rowCol X W' (i 0) (i 1) + bias (i 1)) 0

/-- max(X·W + bias, 0). -/
def dense (X : Mat M k) (W : Mat k n) (bias : Fin n → EReal) : Mat M n :=
  fun i => max (rowCol X W (i 0) (i 1) + bias (i 1)) 0

/-- X·w + b for a weight matrix of ONE column, as a vector over the rows. -/
def affineCol (X : Mat M k) (W : Mat k 1) (b : EReal) : (⟨1, ![M]⟩ : Shape).Idx → EReal :=
  fun i => rowCol X W (i 0) 0 + b

/-! ## Rows of a block are rows of the whole -/

/-- Row p of the block b is row σ p of the matrix B. -/
def Rows {mb : ℕ} (σ : Fin mb → Fin M) (b : Mat mb k) (B : Mat M k) : Prop := ∀ p c, b (ix2 p c) = B (ix2 (σ p) c)

section RowsLemmas

variable {mb : ℕ} {σ : Fin mb → Fin M}

theorem rowCol_rows {b : Mat mb k} {B : Mat M k} (h : Rows σ b B) (W : Mat k n) (p : Fin mb) (j : Fin n) :
    rowCol b W p j = rowCol B W (σ p) j :=
  Finset.sum_congr rfl fun c _ => by rw [h p c]

theorem Rows.pair {a : Mat mb k} {x : Mat mb k'} {A : Mat M k} {X : Mat M k'} (ha : Rows σ a A) (hx : Rows σ x X)
    (W : Mat k n) (W' : Mat k' n) (bias : Fin n → EReal) : Rows σ (pair a x W W' bias) (pair A X W W' bias) := fun p c => by
  show max (rowCol a W p c + rowCol x W' p c + bias c) 0 = max (rowCol A W (σ p) c + rowCol X W' (σ p) c + bias c) 0
  rw [rowCol_rows ha, rowCol_rows hx]

theorem Rows.dense {x : Mat mb k} {X : Mat M k} (hx : Rows σ x X) (W : Mat k n) (bias : Fin n → EReal) :
    Rows σ (dense x W bias) (dense X W bias) := fun p c => by
  show max (rowCol x W p c + bias c) 0 = max (rowCol X W (σ p) c + bias c) 0
  rw [rowCol_rows hx]

theorem affineCol_rows {x : Mat mb k} {X : Mat M k} (hx : Rows σ x X) (W : Mat k 1) (b : EReal) (p : Fin mb) :
    affineCol x W b (ix1 p) = affineCol X W b (ix1 (σ p)) := by
  show rowCol x W p 0 + b = rowCol X W (σ p) 0 + b
  rw [rowCol_rows hx]

end RowsLemmas

/-! ## The products read at an index -/

/-- The host's plain product of an m×k by a k×n matrix at (a, b). -/
theorem hostDot_apply {φ₁ φ₂ : FTy} (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂) (a : Fin m) (b : Fin n) :
    Host.dotGeneral d prec A B (ix2 a b) = rowCol A B a b := by
  subst hd
  exact StackMember.dotGeneral_plain_apply prec A B a b

/-- The matrix unit's product into the zero splat at (a, b): the same sum. -/
theorem matmul_apply {φ₁ φ₂ : FTy} (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = rowCol A B a b := by
  rw [← hostDot_apply d hd prec A B a b]
  show FloatOps.matmul d prec A B _ _ = FloatOps.dotGeneral d prec .single A B _
  rw [Ideal.matmul_constant_zero_apply, Ideal.dotGeneral_apply]

/-! ## Broadcasts read at an index -/

/-- The scalar zero broadcast over any shape reads 0. -/
theorem zeroBroadcast_apply {t : Shape} (h : (⟨0, ![]⟩ : Shape).BroadcastsInDim t ![]) (i : t.Idx) :
    broadcastInDim t ![] h (constant (F := Ideal) ⟨0, ![]⟩ .f32 0x00000000#32) i = 0 := by
  rw [broadcastInDim_apply ![] h _ i ix0 (fun a => a.elim0)]
  exact Ideal.ofBits_zero_f32

/-- A vector of n entries made one row and then repeated down M rows reads, at (r, j), entry j. -/
theorem biasRows_apply (h1 : (⟨1, ![n]⟩ : Shape).BroadcastsInDim ⟨2, ![1, n]⟩ ![1])
    (h01 : (⟨2, ![1, n]⟩ : Shape).BroadcastsInDim ⟨2, ![M, n]⟩ ![0, 1]) (b : (⟨1, ![n]⟩ : Shape).Idx → EReal)
    (r : Fin M) (j : Fin n) :
    broadcastInDim ⟨2, ![M, n]⟩ ![0, 1] h01 (broadcastInDim ⟨2, ![1, n]⟩ ![1] h1 b) (ix2 r j) = b (ix1 j) := by
  rw [broadcastInDim_apply ![0, 1] h01 _ (ix2 r j) (ix2 (0 : Fin 1) j) (fun a => by
    match a with
    | ⟨0, _⟩ => rfl
    | ⟨1, _⟩ =>
      show j.val = if n = 1 then 0 else j.val
      split
      · have := j.isLt; omega
      · rfl)]
  exact broadcastInDim_apply ![1] h1 b (ix2 (0 : Fin 1) j) (ix1 j) (fun a => by
    match a with
    | ⟨0, _⟩ =>
      show j.val = if n = 1 then 0 else j.val
      split
      · have := j.isLt; omega
      · rfl)

/-- One row repeated down a tile of m rows reads, at (r, j), the row's entry j. -/
theorem tileBias_apply (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → EReal) (r : Fin m) (j : Fin n) :
    broadcastTo ⟨2, ![m, n]⟩ (shapeCast ⟨2, ![1, n]⟩ v hsc) hbc (ix2 r j) = v (ix2 (0 : Fin 1) j) := by
  rw [broadcastTo_1b_ab_apply, shapeCast_self]

/-- A matrix of one column cast to a vector reads, at r, the column's entry r. -/
theorem dropColumn_apply {α : Type} (hsc : (⟨2, ![m, 1]⟩ : Shape).ShapeCasts ⟨1, ![m]⟩)
    (v : (⟨2, ![m, 1]⟩ : Shape).Idx → α) (r : Fin m) : shapeCast ⟨1, ![m]⟩ v hsc (ix1 r) = v (ix2 r (0 : Fin 1)) :=
  shapeCast_apply v hsc _ _ (by
    rw [Shape.rowMajor_val_two, Shape.rowMajor_val_one]
    show r.val * 1 + 0 = r.val
    omega)

/-! ## The tile's spelling -/

/-- Two products on the matrix unit added, then the bias row, then the larger of that and zero. -/
theorem tilePair_eq {φ₁ φ₂ φ₃ φ₄ : FTy} (d : DotDims ⟨2, ![m, k]⟩ ⟨2, ![k, n]⟩ ⟨2, ![m, n]⟩) (hd : d = DotDims.plain m k n)
    (hsc : (⟨2, ![1, n]⟩ : Shape).ShapeCasts ⟨2, ![1, n]⟩) (hbc : (⟨2, ![1, n]⟩ : Shape).Broadcasts ⟨2, ![m, n]⟩)
    (a : FVec Ideal ⟨2, ![m, k]⟩ φ₁) (x : FVec Ideal ⟨2, ![m, k]⟩ φ₂) (w : FVec Ideal ⟨2, ![k, n]⟩ φ₃)
    (w' : FVec Ideal ⟨2, ![k, n]⟩ φ₄) (v : FVec Ideal ⟨2, ![1, n]⟩ .f32) :
    maximumf (addf (addf (matmul d none a w (constant ⟨2, ![m, n]⟩ .f32 0x00000000#32))
        (matmul d none x w' (constant ⟨2, ![m, n]⟩ .f32 0x00000000#32)))
        (broadcastTo ⟨2, ![m, n]⟩ (shapeCast ⟨2, ![1, n]⟩ v hsc) hbc))
      (broadcast ⟨2, ![m, n]⟩ (Scalar.ofBits (F := Ideal) .f32 0x00000000#32))
      = pair a x w w' (fun j => v (ix2 (0 : Fin 1) j)) := by
  funext i
  obtain ⟨p, q, rfl⟩ : ∃ (p : Fin m) (q : Fin n), i = ix2 p q := ⟨i 0, i 1, eq_ix2 i⟩
  rw [maximumf_apply, addf_apply, addf_apply, matmul_apply d hd, matmul_apply d hd, tileBias_apply]
  show max _ (Ideal.ofBits .f32 0x00000000#32) = _
  rw [Ideal.ofBits_zero_f32]
  rfl

/-- One product on the matrix unit, the bias row, the larger of that and zero. -/
theorem tileDense_eq {φ₁ φ₂ : FTy} (d : DotDims ⟨2, ![m, k]⟩ ⟨2, ![k, n]⟩ ⟨2, ![m, n]⟩) (hd : d = DotDims.plain m k n)
    (hsc : (⟨2, ![1, n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![k, n]⟩ φ₂) (v : FVec Ideal ⟨2, ![1, n]⟩ .f32) :
    maximumf (addf (matmul d none x w (constant ⟨2, ![m, n]⟩ .f32 0x00000000#32))
        (broadcastTo ⟨2, ![m, n]⟩ (shapeCast ⟨2, ![1, n]⟩ v hsc) hbc))
      (broadcast ⟨2, ![m, n]⟩ (Scalar.ofBits (F := Ideal) .f32 0x00000000#32))
      = dense x w (fun j => v (ix2 (0 : Fin 1) j)) := by
  funext i
  obtain ⟨p, q, rfl⟩ : ∃ (p : Fin m) (q : Fin n), i = ix2 p q := ⟨i 0, i 1, eq_ix2 i⟩
  rw [maximumf_apply, addf_apply, matmul_apply d hd, tileBias_apply]
  show max _ (Ideal.ofBits .f32 0x00000000#32) = _
  rw [Ideal.ofBits_zero_f32]
  rfl

/-- A product with a one-column weight matrix, the one-entry bias repeated down the tile, the column read as a vector. -/
theorem tileAffineCol_eq {φ₁ φ₂ : FTy} (d : DotDims ⟨2, ![m, k]⟩ ⟨2, ![k, 1]⟩ ⟨2, ![m, 1]⟩) (hd : d = DotDims.plain m k 1)
    (hsc : (⟨2, ![1, 1]⟩ : Shape).ShapeCasts ⟨2, ![1, 1]⟩) (hbc : (⟨2, ![1, 1]⟩ : Shape).Broadcasts ⟨2, ![m, 1]⟩)
    (hcol : (⟨2, ![m, 1]⟩ : Shape).ShapeCasts ⟨1, ![m]⟩)
    (x : FVec Ideal ⟨2, ![m, k]⟩ φ₁) (w : FVec Ideal ⟨2, ![k, 1]⟩ φ₂) (v : FVec Ideal ⟨2, ![1, 1]⟩ .f32) :
    shapeCast ⟨1, ![m]⟩ (addf (matmul d none x w (constant ⟨2, ![m, 1]⟩ .f32 0x00000000#32))
        (broadcastTo ⟨2, ![m, 1]⟩ (shapeCast ⟨2, ![1, 1]⟩ v hsc) hbc)) hcol
      = affineCol x w (v (ix2 (0 : Fin 1) (0 : Fin 1))) := by
  funext i
  obtain ⟨p, rfl⟩ : ∃ p : Fin m, i = ix1 p := ⟨i 0, eq_ix1 i⟩
  rw [dropColumn_apply, addf_apply, matmul_apply d hd, tileBias_apply]
  rfl

/-! ## The whole array's spelling -/

/-- The host's two products with the bias between them, then the larger of that and zero: the same layer, the three
    summands in another order. -/
theorem hostPair_eq (d : DotDims ⟨2, ![M, k]⟩ ⟨2, ![k, n]⟩ ⟨2, ![M, n]⟩) (hd : d = DotDims.plain M k n)
    (h1 : (⟨1, ![n]⟩ : Shape).BroadcastsInDim ⟨2, ![1, n]⟩ ![1])
    (h01 : (⟨2, ![1, n]⟩ : Shape).BroadcastsInDim ⟨2, ![M, n]⟩ ![0, 1])
    (h0 : (⟨0, ![]⟩ : Shape).BroadcastsInDim ⟨2, ![M, n]⟩ ![])
    (A X : FVec Ideal ⟨2, ![M, k]⟩ .f32) (W W' : FVec Ideal ⟨2, ![k, n]⟩ .f32) (b : FVec Ideal ⟨1, ![n]⟩ .f32) :
    maximumf (addf (addf (Host.dotGeneral d none A W)
        (broadcastInDim ⟨2, ![M, n]⟩ ![0, 1] h01 (broadcastInDim ⟨2, ![1, n]⟩ ![1] h1 b)))
        (Host.dotGeneral d none X W'))
      (broadcastInDim ⟨2, ![M, n]⟩ ![] h0 (constant (F := Ideal) ⟨0, ![]⟩ .f32 0x00000000#32))
      = pair A X W W' (fun j => b (ix1 j)) := by
  funext i
  obtain ⟨p, q, rfl⟩ : ∃ (p : Fin M) (q : Fin n), i = ix2 p q := ⟨i 0, i 1, eq_ix2 i⟩
  rw [maximumf_apply, addf_apply, addf_apply, hostDot_apply d hd, hostDot_apply d hd, biasRows_apply, zeroBroadcast_apply]
  show max (rowCol A W p q + b (ix1 q) + rowCol X W' p q) 0 = max (rowCol A W p q + rowCol X W' p q + b (ix1 q)) 0
  rw [add_right_comm]

/-- The host's product, the bias, the larger of that and zero. -/
theorem hostDense_eq (d : DotDims ⟨2, ![M, k]⟩ ⟨2, ![k, n]⟩ ⟨2, ![M, n]⟩) (hd : d = DotDims.plain M k n)
    (h1 : (⟨1, ![n]⟩ : Shape).BroadcastsInDim ⟨2, ![1, n]⟩ ![1])
    (h01 : (⟨2, ![1, n]⟩ : Shape).BroadcastsInDim ⟨2, ![M, n]⟩ ![0, 1])
    (h0 : (⟨0, ![]⟩ : Shape).BroadcastsInDim ⟨2, ![M, n]⟩ ![])
    (X : FVec Ideal ⟨2, ![M, k]⟩ .f32) (W : FVec Ideal ⟨2, ![k, n]⟩ .f32) (b : FVec Ideal ⟨1, ![n]⟩ .f32) :
    maximumf (addf (Host.dotGeneral d none X W)
        (broadcastInDim ⟨2, ![M, n]⟩ ![0, 1] h01 (broadcastInDim ⟨2, ![1, n]⟩ ![1] h1 b)))
      (broadcastInDim ⟨2, ![M, n]⟩ ![] h0 (constant (F := Ideal) ⟨0, ![]⟩ .f32 0x00000000#32))
      = dense X W (fun j => b (ix1 j)) := by
  funext i
  obtain ⟨p, q, rfl⟩ : ∃ (p : Fin M) (q : Fin n), i = ix2 p q := ⟨i 0, i 1, eq_ix2 i⟩
  rw [maximumf_apply, addf_apply, hostDot_apply d hd, biasRows_apply, zeroBroadcast_apply]
  rfl

/-- The host's product with a one-column weight matrix plus the one-entry bias, reshaped to a vector. -/
theorem hostAffineCol_eq (d : DotDims ⟨2, ![M, k]⟩ ⟨2, ![k, 1]⟩ ⟨2, ![M, 1]⟩) (hd : d = DotDims.plain M k 1)
    (h1 : (⟨1, ![1]⟩ : Shape).BroadcastsInDim ⟨2, ![1, 1]⟩ ![1])
    (h01 : (⟨2, ![1, 1]⟩ : Shape).BroadcastsInDim ⟨2, ![M, 1]⟩ ![0, 1])
    (hcol : (⟨2, ![M, 1]⟩ : Shape).ShapeCasts ⟨1, ![M]⟩)
    (X : FVec Ideal ⟨2, ![M, k]⟩ .f32) (W : FVec Ideal ⟨2, ![k, 1]⟩ .f32) (b : FVec Ideal ⟨1, ![1]⟩ .f32) :
    shapeCast ⟨1, ![M]⟩ (addf (Host.dotGeneral d none X W)
        (broadcastInDim ⟨2, ![M, 1]⟩ ![0, 1] h01 (broadcastInDim ⟨2, ![1, 1]⟩ ![1] h1 b))) hcol
      = affineCol X W (b (ix1 (0 : Fin 1))) := by
  funext i
  obtain ⟨p, rfl⟩ : ∃ p : Fin M, i = ix1 p := ⟨i 0, eq_ix1 i⟩
  rw [dropColumn_apply, addf_apply, hostDot_apply d hd, biasRows_apply]
  rfl

/-! ## A product over two matrices laid side by side -/

/-- Row a of [A | X] against column b of W is row a of A against column b of the upper rows of W plus row a of X
    against column b of the lower rows. -/
theorem rowCol_catCols {p q : ℕ} (C : Mat M (p + q)) (A : Mat M p) (X : Mat M q) (W : Mat (p + q) n)
    (Wt : Mat p n) (Wb : Mat q n)
    (hA : ∀ r (c : Fin p), C (ix2 r (Fin.castAdd q c)) = A (ix2 r c))
    (hX : ∀ r (c : Fin q), C (ix2 r (Fin.natAdd p c)) = X (ix2 r c))
    (ht : ∀ (c : Fin p) j, Wt (ix2 c j) = W (ix2 (Fin.castAdd q c) j))
    (hb : ∀ (c : Fin q) j, Wb (ix2 c j) = W (ix2 (Fin.natAdd p c) j)) (a : Fin M) (b : Fin n) :
    rowCol C W a b = rowCol A Wt a b + rowCol X Wb a b := by
  unfold rowCol
  rw [Fin.sum_univ_add]
  congr 1
  · exact Finset.sum_congr rfl fun c _ => by rw [hA, ht]
  · exact Finset.sum_congr rfl fun c _ => by rw [hX, hb]

/-- The host's first layer over two matrices laid side by side: the product of [A | X] with W, the bias, the larger of
    that and zero, is the two-product layer over A and X with the upper p rows of W and its lower q rows. -/
theorem hostCatPair_eq {p q t : ℕ} (ht : p + q = t)
    (d : DotDims ⟨2, ![M, t]⟩ ⟨2, ![t, n]⟩ ⟨2, ![M, n]⟩) (hd : d = DotDims.plain M t n)
    (hcat : Shape.Concatenates [(⟨2, ![M, p]⟩ : Shape), ⟨2, ![M, q]⟩] ⟨2, ![M, t]⟩ 1)
    (hst : (⟨2, ![t, n]⟩ : Shape).Slices ![0, 0] ⟨2, ![p, n]⟩) (hsb : (⟨2, ![t, n]⟩ : Shape).Slices ![p, 0] ⟨2, ![q, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (h0 : (⟨0, ![]⟩ : Shape).BroadcastsInDim ⟨2, ![M, n]⟩ ![])
    (A : FVec Ideal ⟨2, ![M, p]⟩ .f32) (X : FVec Ideal ⟨2, ![M, q]⟩ .f32) (W : FVec Ideal ⟨2, ![t, n]⟩ .f32)
    (b : FVec Ideal ⟨1, ![n]⟩ .f32) :
    maximumf (addf (Host.dotGeneral d none (concatenate ⟨2, ![M, t]⟩ 1 [⟨⟨2, ![M, p]⟩, A⟩, ⟨⟨2, ![M, q]⟩, X⟩] hcat) W)
        (broadcastInDim ⟨2, ![M, n]⟩ ![0, 1] h01 (broadcastInDim ⟨2, ![1, n]⟩ ![1] h1 b)))
      (broadcastInDim ⟨2, ![M, n]⟩ ![] h0 (constant (F := Ideal) ⟨0, ![]⟩ .f32 0x00000000#32))
      = pair A X (extractStridedSlice ⟨2, ![p, n]⟩ ![0, 0] W hst) (extractStridedSlice ⟨2, ![q, n]⟩ ![p, 0] W hsb)
          (fun j => b (ix1 j)) := by
  subst ht
  funext i
  obtain ⟨r, j, rfl⟩ : ∃ (r : Fin M) (j : Fin n), i = ix2 r j := ⟨i 0, i 1, eq_ix2 i⟩
  rw [maximumf_apply, addf_apply, hostDot_apply d hd, biasRows_apply, zeroBroadcast_apply]
  show max (rowCol _ W r j + b (ix1 j)) 0 = max (rowCol A _ r j + rowCol X _ r j + b (ix1 j)) 0
  rw [rowCol_catCols (p := p) (q := q) _ A X W _ _ ?_ ?_ ?_ ?_]
  · intro r' c
    exact concatenate_pair_apply_left 1 A X hcat (ix2 r' (Fin.castAdd q c)) rfl (ix2 r' c) (fun ax => by
      match ax with
      | ⟨0, _⟩ => rfl
      | ⟨1, _⟩ => rfl)
  · intro r' c
    exact concatenate_pair_apply_right 1 A X hcat (ix2 r' (Fin.natAdd p c)) rfl rfl (ix2 r' c) (fun ax hax => by
      match ax with
      | ⟨0, _⟩ => rfl
      | ⟨1, _⟩ => exact absurd rfl hax) (by show c.val + p = p + c.val; omega)
  · intro c j'
    exact slice2_axis0_apply 0 W hst c j' (Fin.castAdd q c) (by show c.val = 0 + c.val; omega)
  · intro c j'
    exact slice2_axis0_apply p W hsb c j' (Fin.natAdd p c) rfl

end DenseLayers

end
-- ==== Proof.Conv0.lean ====
/-
  The first graph-convolution call, read as a value: whatever the arrays hold when the call is entered, the result
  array ends holding max(agg·W_rel + x·W_root + b, 0), entry by entry.

  The grid has 8 points. Point t reads rows 512t … 512t+511 of the aggregate and of the destination features, the two
  weight matrices and the bias row whole, and writes rows 512t … 512t+511 of the result. Row r of the layer reads row r
  of the two matrix operands only, so the block written at point t is the block of the whole-array layer; the eight blocks
  tile the result.
-/
import proofs.«176186_j38362647888477_1_alg».proof.Proof.Gen.KernelIdeal.Frame
import proofs.«176186_j38362647888477_1_alg».proof.Proof.LibDenseLayers
import Idealize.ShloMosaic.Lib.Pipeline.Value

set_option maxRecDepth 16384

noncomputable section

namespace Cert.KernelIdeal.Conv0

open Cert.KernelIdeal Cert.KernelIdeal.Gen
open Idealize.ShloMosaic Idealize.ShloMosaic.TcCoe Idealize.SL.Sem Idealize.ShloMosaic.ValueIdx DenseLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the two-product layer of its loaded blocks: the narrowing of a float format is the
    identity on extended reals, a cast to the same shape is the identity. -/
theorem payload (x0 x1 : Vec Ideal S512x1536 .f32) (x2 x4 : Vec Ideal S1536x1536 .bf16) (x3 : Vec Ideal S1x1536 .f32) :
    k0_pay1 x0 x1 x2 x4 x3 = pair (M := 512) (k := 1536) (k' := 1536) (n := 1536) x0 x1 x2 x4 (fun j => x3 (ix2 (0 : Fin 1) j)) := by
  unfold k0_pay1
  dsimp only
  refine (tilePair_eq dot_S512x1536_S1536x1536_S512x1536_1_0_0_1_n_n rfl _ _ _ _ _ _ _).trans ?_
  simp only [shapeCast_self]
  rfl

/-- The whole-array layer over the arrays as the call finds them. -/
abbrev G (c : Dev nD) : Mat 4096 1536 :=
  pair (M := 4096) (k := 1536) (k' := 1536) (n := 1536) (V c main_v9) (V c main_arg1) (V c main_v20) (V c main_v21)
    (fun j => (V c main_v24 : Mat 1 1536) (ix2 (0 : Fin 1) j))

/-- The printed index maps, decided over the grid: the row-blocked windows sit at block (t, 0), the resident ones at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The grid has 8 points. -/
theorem point_lt (t : Fin cfg0.N) : t.val < 8 := lt_of_lt_of_eq t.isLt N_0

/-- The array row that row p of point t's block is. -/
def rowAt (t : Fin cfg0.N) (p : Fin 512) : Fin 4096 :=
  ⟨t.val * 512 + p.val, by have := point_lt t; have := p.isLt; omega⟩

/-- The aggregate's block at point t is rows 512t … of the aggregate. -/
theorem agg_rows (c : Dev nD) (t : Fin cfg0.N) : Rows (rowAt t) (iblk0 V c 0 t : Mat 512 1536) (V c main_v9 : Mat 4096 1536) := fun p q => by
  obtain ⟨e0, e1, -⟩ := idx_facts t
  unfold iblk0
  rw [View.read_apply]
  show (V c main_v9 : Mat 4096 1536) _ = (V c main_v9 : Mat 4096 1536) _
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 1536 + 1 * q.val = q.val; rw [e1]; omega

/-- The destination features' block at point t is rows 512t … of the features. -/
theorem x_rows (c : Dev nD) (t : Fin cfg0.N) : Rows (rowAt t) (iblk0 V c 1 t : Mat 512 1536) (V c main_arg1 : Mat 4096 1536) := fun p q => by
  obtain ⟨-, -, e0, e1, -⟩ := idx_facts t
  unfold iblk0
  rw [View.read_apply]
  show (V c main_arg1 : Mat 4096 1536) _ = (V c main_arg1 : Mat 4096 1536) _
  congr 1
  funext a
  apply Fin.ext
  match a with
  | ⟨0, _⟩ => show win0_1.index t (0 : Fin 2) * 512 + 1 * p.val = t.val * 512 + p.val; rw [e0]; omega
  | ⟨1, _⟩ => show win0_1.index t (1 : Fin 2) * 1536 + 1 * q.val = q.val; rw [e1]; omega

/-- The resident windows' one block is the whole array. -/
theorem wrel_whole (c : Dev nD) (t : Fin cfg0.N) : (iblk0 V c 2 t : Mat 1536 1536) = (V c main_v20 : Mat 1536 1536) := by
  obtain ⟨-, -, -, -, e0, e1, -⟩ := idx_facts t
  funext y
  unfold iblk0
  rw [View.read_apply]
  show (V c main_v20 : Mat 1536 1536) _ = (V c main_v20 : Mat 1536 1536) y
  congr 1
  funext a
  apply Fin.ext
  match a with
  | ⟨0, _⟩ => show win0_2.index t (0 : Fin 2) * 1536 + 1 * (y 0).val = (y 0).val; rw [e0]; omega
  | ⟨1, _⟩ => show win0_2.index t (1 : Fin 2) * 1536 + 1 * (y 1).val = (y 1).val; rw [e1]; omega

theorem bias_whole (c : Dev nD) (t : Fin cfg0.N) : (iblk0 V c 3 t : Mat 1 1536) = (V c main_v24 : Mat 1 1536) := by
  obtain ⟨-, -, -, -, -, -, e0, e1, -⟩ := idx_facts t
  funext y
  unfold iblk0
  rw [View.read_apply]
  show (V c main_v24 : Mat 1 1536) _ = (V c main_v24 : Mat 1 1536) y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 1536 + 1 * (y 1).val = (y 1).val; rw [e1]; omega

theorem wroot_whole (c : Dev nD) (t : Fin cfg0.N) : (iblk0 V c 4 t : Mat 1536 1536) = (V c main_v21 : Mat 1536 1536) := by
  obtain ⟨-, -, -, -, -, -, -, -, e0, e1, -⟩ := idx_facts t
  funext y
  unfold iblk0
  rw [View.read_apply]
  show (V c main_v21 : Mat 1536 1536) _ = (V c main_v21 : Mat 1536 1536) y
  congr 1
  funext a
  apply Fin.ext
  match a with
  | ⟨0, _⟩ => show win0_4.index t (0 : Fin 2) * 1536 + 1 * (y 0).val = (y 0).val; rw [e0]; omega
  | ⟨1, _⟩ => show win0_4.index t (1 : Fin 2) * 1536 + 1 * (y 1).val = (y 1).val; rw [e1]; omega

/-- What point t writes back is block t of the whole-array layer. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S512x1536) hz, View.ld_unit_zero (S := S1536x1536) hz, View.ld_unit_zero (S := S1x1536) hz]
  rw [payload]
  funext j
  obtain ⟨p, q, rfl⟩ : ∃ (p : Fin 512) (q : Fin 1536), j = ix2 p q := ⟨j 0, j 1, eq_ix2 j⟩
  obtain ⟨-, -, -, -, -, -, -, -, -, -, e0, e1⟩ := idx_facts t
  have hemb : ((cfg0.win 5).blk t).view.emb (ix2 p q) = ix2 (rowAt t p) q := by
    funext a
    apply Fin.ext
    match a with
    | ⟨0, _⟩ => show win0_5.index t (0 : Fin 2) * 512 + 1 * p.val = t.val * 512 + p.val; rw [e0]; omega
    | ⟨1, _⟩ => show win0_5.index t (1 : Fin 2) * 1536 + 1 * q.val = q.val; rw [e1]; omega
  show pair (M := 512) (k := 1536) (k' := 1536) (n := 1536) (iblk0 V c 0 t) (iblk0 V c 1 t) (iblk0 V c 2 t) (iblk0 V c 4 t)
      (fun j => (iblk0 V c 3 t : Mat 1 1536) (ix2 (0 : Fin 1) j)) (ix2 p q) = G V c (((cfg0.win 5).blk t).view.emb (ix2 p q))
  rw [hemb, wrel_whole V c t, wroot_whole V c t, bias_whole V c t]
  exact Rows.pair (agg_rows V c t) (x_rows V c t) _ _ _ p q

/-- An index of the result is in point t's block iff each coordinate is in the block's range on its axis. -/
theorem mem_blk (t : Fin cfg0.N) (i : S4096x1536.Idx) :
    i ∈ ((cfg0.win 5).blk t).view.set ↔ ∀ a : Fin 2, win0_5.index t a * S512x1536.size a ≤ (i a).val ∧ (i a).val < win0_5.index t a * S512x1536.size a + S512x1536.size a := by
  show i ∈ ((View.whole main_v26).slice (win0_5.rect t)).set ↔ _
  rw [View.set_slice_whole, Rect.mem_set_unit]
  exact Iff.rfl

/-- Every index of the result is in the block of the point its row falls in. -/
theorem cover (i : S4096x1536.Idx) : ∃ t : Fin cfg0.N, (cfg0.win 5).flush t = true ∧ i ∈ ((cfg0.win 5).blk t).view.set := by
  have hi0 : (i 0).val < 4096 := (i 0).isLt
  have hi1 : (i 1).val < 1536 := (i 1).isLt
  refine ⟨⟨(i 0).val / 512, lt_of_lt_of_eq (by omega : (i 0).val / 512 < 8) N_0.symm⟩, flush0_5 _, ?_⟩
  obtain ⟨-, -, -, -, -, -, -, -, -, -, e0, e1⟩ := idx_facts ⟨(i 0).val / 512, lt_of_lt_of_eq (by omega : (i 0).val / 512 < 8) N_0.symm⟩
  rw [mem_blk]
  intro a
  match a with
  | ⟨0, _⟩ => show win0_5.index _ (0 : Fin 2) * 512 ≤ (i 0).val ∧ (i 0).val < win0_5.index _ (0 : Fin 2) * 512 + 512; rw [e0]; show (i 0).val / 512 * 512 ≤ _ ∧ _ < (i 0).val / 512 * 512 + 512; omega
  | ⟨1, _⟩ => show win0_5.index _ (1 : Fin 2) * 1536 ≤ (i 1).val ∧ (i 1).val < win0_5.index _ (1 : Fin 2) * 1536 + 1536; rw [e1]; omega

/-- The result array after the call. -/
theorem final (c : Dev nD) : (dat0 V c).arrAt 5 cfg0.N = G V c :=
  (dat0 V c).arrAt_eq_of_cover 5 (G V c) (fun t _ => flushed_eq V c t) cover

end Cert.KernelIdeal.Conv0

end
-- ==== Proof.Conv1.lean ====
/-
  The second graph-convolution call, read as a value: whatever the arrays hold when the call is entered, the result
  array ends holding max(agg·W_rel + x·W_root + b, 0), entry by entry.

  The grid has 8 points. Point t reads rows 512t … 512t+511 of the aggregate and of the destination features, the two
  weight matrices and the bias row whole, and writes rows 512t … 512t+511 of the result. Row r of the layer reads row r
  of the two matrix operands only, so the block written at point t is the block of the whole-array layer; the eight blocks
  tile the result.
-/
import proofs.«176186_j38362647888477_1_alg».proof.Proof.Gen.KernelIdeal.Frame
import proofs.«176186_j38362647888477_1_alg».proof.Proof.LibDenseLayers
import Idealize.ShloMosaic.Lib.Pipeline.Value

set_option maxRecDepth 16384

noncomputable section

namespace Cert.KernelIdeal.Conv1

open Cert.KernelIdeal Cert.KernelIdeal.Gen
open Idealize.ShloMosaic Idealize.ShloMosaic.TcCoe Idealize.SL.Sem Idealize.ShloMosaic.ValueIdx DenseLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the two-product layer of its loaded blocks: the narrowing of a float format is the
    identity on extended reals, a cast to the same shape is the identity. -/
theorem payload (x0 x1 : Vec Ideal S512x1536 .f32) (x2 x4 : Vec Ideal S1536x1536 .bf16) (x3 : Vec Ideal S1x1536 .f32) :
    k1_pay1 x0 x1 x2 x4 x3 = pair (M := 512) (k := 1536) (k' := 1536) (n := 1536) x0 x1 x2 x4 (fun j => x3 (ix2 (0 : Fin 1) j)) := by
  unfold k1_pay1
  dsimp only
  refine (tilePair_eq dot_S512x1536_S1536x1536_S512x1536_1_0_0_1_n_n rfl _ _ _ _ _ _ _).trans ?_
  simp only [shapeCast_self]
  rfl

/-- The whole-array layer over the arrays as the call finds them. -/
abbrev G (c : Dev nD) : Mat 4096 1536 :=
  pair (M := 4096) (k := 1536) (k' := 1536) (n := 1536) (V c main_v19) (V c main_arg2) (V c main_v22) (V c main_v23)
    (fun j => (V c main_v25 : Mat 1 1536) (ix2 (0 : Fin 1) j))

/-- The printed index maps, decided over the grid: the row-blocked windows sit at block (t, 0), the resident ones at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid has 8 points. -/
theorem point_lt (t : Fin cfg1.N) : t.val < 8 := lt_of_lt_of_eq t.isLt N_1

/-- The array row that row p of point t's block is. -/
def rowAt (t : Fin cfg1.N) (p : Fin 512) : Fin 4096 :=
  ⟨t.val * 512 + p.val, by have := point_lt t; have := p.isLt; omega⟩

/-- The aggregate's block at point t is rows 512t … of the aggregate. -/
theorem agg_rows (c : Dev nD) (t : Fin cfg1.N) : Rows (rowAt t) (iblk1 V c 0 t : Mat 512 1536) (V c main_v19 : Mat 4096 1536) := fun p q => by
  obtain ⟨e0, e1, -⟩ := idx_facts t
  unfold iblk1
  rw [View.read_apply]
  show (V c main_v19 : Mat 4096 1536) _ = (V c main_v19 : Mat 4096 1536) _
  congr 1
  funext a
  apply Fin.ext
  match a with
  | ⟨0, _⟩ => show win1_0.index t (0 : Fin 2) * 512 + 1 * p.val = t.val * 512 + p.val; rw [e0]; omega
  | ⟨1, _⟩ => show win1_0.index t (1 : Fin 2) * 1536 + 1 * q.val = q.val; rw [e1]; omega

/-- The destination features' block at point t is rows 512t … of the features. -/
theorem x_rows (c : Dev nD) (t : Fin cfg1.N) : Rows (rowAt t) (iblk1 V c 1 t : Mat 512 1536) (V c main_arg2 : Mat 4096 1536) := fun p q => by
  obtain ⟨-, -, e0, e1, -⟩ := idx_facts t
  unfold iblk1
  rw [View.read_apply]
  show (V c main_arg2 : Mat 4096 1536) _ = (V c main_arg2 : Mat 4096 1536) _
  congr 1
  funext a
  apply Fin.ext
  match a with
  | ⟨0, _⟩ => show win1_1.index t (0 : Fin 2) * 512 + 1 * p.val = t.val * 512 + p.val; rw [e0]; omega
  | ⟨1, _⟩ => show win1_1.index t (1 : Fin 2) * 1536 + 1 * q.val = q.val; rw [e1]; omega

/-- The resident windows' one block is the whole array. -/
theorem wrel_whole (c : Dev nD) (t : Fin cfg1.N) : (iblk1 V c 2 t : Mat 1536 1536) = (V c main_v22 : Mat 1536 1536) := by
  obtain ⟨-, -, -, -, e0, e1, -⟩ := idx_facts t
  funext y
  unfold iblk1
  rw [View.read_apply]
  show (V c main_v22 : Mat 1536 1536) _ = (V c main_v22 : Mat 1536 1536) y
  congr 1
  funext a
  apply Fin.ext
  match a with
  | ⟨0, _⟩ => show win1_2.index t (0 : Fin 2) * 1536 + 1 * (y 0).val = (y 0).val; rw [e0]; omega
  | ⟨1, _⟩ => show win1_2.index t (1 : Fin 2) * 1536 + 1 * (y 1).val = (y 1).val; rw [e1]; omega

theorem bias_whole (c : Dev nD) (t : Fin cfg1.N) : (iblk1 V c 3 t : Mat 1 1536) = (V c main_v25 : Mat 1 1536) := by
  obtain ⟨-, -, -, -, -, -, e0, e1, -⟩ := idx_facts t
  funext y
  unfold iblk1
  rw [View.read_apply]
  show (V c main_v25 : Mat 1 1536) _ = (V c main_v25 : Mat 1 1536) y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 1536 + 1 * (y 1).val = (y 1).val; rw [e1]; omega

theorem wroot_whole (c : Dev nD) (t : Fin cfg1.N) : (iblk1 V c 4 t : Mat 1536 1536) = (V c main_v23 : Mat 1536 1536) := by
  obtain ⟨-, -, -, -, -, -, -, -, e0, e1, -⟩ := idx_facts t
  funext y
  unfold iblk1
  rw [View.read_apply]
  show (V c main_v23 : Mat 1536 1536) _ = (V c main_v23 : Mat 1536 1536) y
  congr 1
  funext a
  apply Fin.ext
  match a with
  | ⟨0, _⟩ => show win1_4.index t (0 : Fin 2) * 1536 + 1 * (y 0).val = (y 0).val; rw [e0]; omega
  | ⟨1, _⟩ => show win1_4.index t (1 : Fin 2) * 1536 + 1 * (y 1).val = (y 1).val; rw [e1]; omega

/-- What point t writes back is block t of the whole-array layer. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S512x1536) hz, View.ld_unit_zero (S := S1536x1536) hz, View.ld_unit_zero (S := S1x1536) hz]
  rw [payload]
  funext j
  obtain ⟨p, q, rfl⟩ : ∃ (p : Fin 512) (q : Fin 1536), j = ix2 p q := ⟨j 0, j 1, eq_ix2 j⟩
  obtain ⟨-, -, -, -, -, -, -, -, -, -, e0, e1⟩ := idx_facts t
  have hemb : ((cfg1.win 5).blk t).view.emb (ix2 p q) = ix2 (rowAt t p) q := by
    funext a
    apply Fin.ext
    match a with
    | ⟨0, _⟩ => show win1_5.index t (0 : Fin 2) * 512 + 1 * p.val = t.val * 512 + p.val; rw [e0]; omega
    | ⟨1, _⟩ => show win1_5.index t (1 : Fin 2) * 1536 + 1 * q.val = q.val; rw [e1]; omega
  show pair (M := 512) (k := 1536) (k' := 1536) (n := 1536) (iblk1 V c 0 t) (iblk1 V c 1 t) (iblk1 V c 2 t) (iblk1 V c 4 t)
      (fun j => (iblk1 V c 3 t : Mat 1 1536) (ix2 (0 : Fin 1) j)) (ix2 p q) = G V c (((cfg1.win 5).blk t).view.emb (ix2 p q))
  rw [hemb, wrel_whole V c t, wroot_whole V c t, bias_whole V c t]
  exact Rows.pair (agg_rows V c t) (x_rows V c t) _ _ _ p q

/-- An index of the result is in point t's block iff each coordinate is in the block's range on its axis. -/
theorem mem_blk (t : Fin cfg1.N) (i : S4096x1536.Idx) :
    i ∈ ((cfg1.win 5).blk t).view.set ↔ ∀ a : Fin 2, win1_5.index t a * S512x1536.size a ≤ (i a).val ∧ (i a).val < win1_5.index t a * S512x1536.size a + S512x1536.size a := by
  show i ∈ ((View.whole main_v27).slice (win1_5.rect t)).set ↔ _
  rw [View.set_slice_whole, Rect.mem_set_unit]
  exact Iff.rfl

/-- Every index of the result is in the block of the point its row falls in. -/
theorem cover (i : S4096x1536.Idx) : ∃ t : Fin cfg1.N, (cfg1.win 5).flush t = true ∧ i ∈ ((cfg1.win 5).blk t).view.set := by
  have hi0 : (i 0).val < 4096 := (i 0).isLt
  have hi1 : (i 1).val < 1536 := (i 1).isLt
  refine ⟨⟨(i 0).val / 512, lt_of_lt_of_eq (by omega : (i 0).val / 512 < 8) N_1.symm⟩, flush1_5 _, ?_⟩
  obtain ⟨-, -, -, -, -, -, -, -, -, -, e0, e1⟩ := idx_facts ⟨(i 0).val / 512, lt_of_lt_of_eq (by omega : (i 0).val / 512 < 8) N_1.symm⟩
  rw [mem_blk]
  intro a
  match a with
  | ⟨0, _⟩ => show win1_5.index _ (0 : Fin 2) * 512 ≤ (i 0).val ∧ (i 0).val < win1_5.index _ (0 : Fin 2) * 512 + 512; rw [e0]; show (i 0).val / 512 * 512 ≤ _ ∧ _ < (i 0).val / 512 * 512 + 512; omega
  | ⟨1, _⟩ => show win1_5.index _ (1 : Fin 2) * 1536 ≤ (i 1).val ∧ (i 1).val < win1_5.index _ (1 : Fin 2) * 1536 + 1536; rw [e1]; omega

/-- The result array after the call. -/
theorem final (c : Dev nD) : (dat1 V c).arrAt 5 cfg1.N = G V c :=
  (dat1 V c).arrAt_eq_of_cover 5 (G V c) (fun t _ => flushed_eq V c t) cover

end Cert.KernelIdeal.Conv1

end
-- ==== Proof.Mlp.lean ====
/-
  The call of the four dense layers, read as a value: whatever the arrays hold when the call is entered, the result
  vector ends holding the score of each row.

  The grid has 8 points. Point t reads rows 512t … 512t+511 of the two graph-convolution results and every weight
  matrix and bias row whole, and writes entries 512t … 512t+511 of the result. Every layer reads, in row r of its result,
  row r of its matrix operands only, so what point t writes is the block of the whole-array network; the eight blocks tile
  the result.
-/
import proofs.«176186_j38362647888477_1_alg».proof.Proof.Gen.KernelIdeal.Frame
import proofs.«176186_j38362647888477_1_alg».proof.Proof.LibDenseLayers
import Idealize.ShloMosaic.Lib.Pipeline.Value

set_option maxRecDepth 16384

noncomputable section

namespace Cert.KernelIdeal.Mlp

open Cert.KernelIdeal Cert.KernelIdeal.Gen
open Idealize.ShloMosaic Idealize.ShloMosaic.TcCoe Idealize.SL.Sem Idealize.ShloMosaic.ValueIdx DenseLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The four layers over any operands of the block's or the array's number of rows. -/
abbrev layers {M : ℕ} (a b : Mat M 1536) (w1t w1b : Mat 1536 512) (r1 : Mat 1 512) (w2 : Mat 512 256) (r2 : Mat 1 256)
    (w3 : Mat 256 64) (r3 : Mat 1 64) (w4 : Mat 64 1) (r4 : Mat 1 1) : (⟨1, ![M]⟩ : Shape).Idx → EReal :=
  affineCol (dense (dense (pair a b w1t w1b (fun j => r1 (ix2 (0 : Fin 1) j))) w2 (fun j => r2 (ix2 (0 : Fin 1) j))) w3
    (fun j => r3 (ix2 (0 : Fin 1) j))) w4 (r4 (ix2 (0 : Fin 1) (0 : Fin 1)))

/-- The body's stored value is the four layers of its loaded blocks: the narrowing of a float format is the identity on
    extended reals, a cast to the same shape is the identity. -/
theorem payload (x0 x1 : Vec Ideal S512x1536 .f32) (x2 x3 : Vec Ideal S1536x512 .bf16) (x4 : Vec Ideal S1x512 .f32)
    (x5 : Vec Ideal S512x256 .bf16) (x6 : Vec Ideal S1x256 .f32) (x7 : Vec Ideal S256x64 .bf16) (x8 : Vec Ideal S1x64 .f32)
    (x9 : Vec Ideal S64x1 .bf16) (x10 : Vec Ideal S1x1 .f32) :
    k2_pay1 (k2_pay2 x0 x1 x2 x3 x4 x5 x6 x7) (k2_pay3 x8) x9 x10 = layers (M := 512) x0 x1 x2 x3 x4 x5 x6 x7 x8 x9 x10 := by
  unfold k2_pay1 k2_pay2 k2_pay3
  dsimp only
  rw [tilePair_eq dot_S512x1536_S1536x512_S512x512_1_0_0_1_n_n rfl,
    tileDense_eq dot_S512x512_S512x256_S512x256_1_0_0_1_n_n rfl,
    tileDense_eq dot_S512x256_S256x64_S512x64_1_0_0_1_n_n rfl,
    tileAffineCol_eq dot_S512x64_S64x1_S512x1_1_0_0_1_n_n rfl]
  simp only [shapeCast_self]
  rfl

/-- The whole-array network over the arrays as the call finds them. -/
abbrev G (c : Dev nD) : (⟨1, ![4096]⟩ : Shape).Idx → EReal :=
  layers (M := 4096) (V c main_v26) (V c main_v27) (V c main_v29) (V c main_v31) (V c main_v35) (V c main_v32) (V c main_v36)
    (V c main_v33) (V c main_v37) (V c main_v34) (V c main_v38)

/-- The printed index maps, decided over the grid: the row-blocked windows sit at block (t, 0), the resident ones at (0, 0),
    the result's at block t. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 1) = t.val :=
  (by decide +kernel : ∀ t : Fin grid2.N, _)

/-- The grid has 8 points. -/
theorem point_lt (t : Fin cfg2.N) : t.val < 8 := lt_of_lt_of_eq t.isLt N_2

/-- The array row that row p of point t's block is. -/
def rowAt (t : Fin cfg2.N) (p : Fin 512) : Fin 4096 :=
  ⟨t.val * 512 + p.val, by have := point_lt t; have := p.isLt; omega⟩

/-- The first graph-convolution result's block at point t is rows 512t … of it. -/
theorem a_rows (c : Dev nD) (t : Fin cfg2.N) : Rows (rowAt t) (iblk2 V c 0 t : Mat 512 1536) (V c main_v26 : Mat 4096 1536) := fun p q => by
  obtain ⟨e0, e1, -⟩ := idx_facts t
  unfold iblk2
  rw [View.read_apply]
  show (V c main_v26 : Mat 4096 1536) _ = (V c main_v26 : Mat 4096 1536) _
  congr 1
  funext a
  apply Fin.ext
  match a with
  | ⟨0, _⟩ => show win2_0.index t (0 : Fin 2) * 512 + 1 * p.val = t.val * 512 + p.val; rw [e0]; omega
  | ⟨1, _⟩ => show win2_0.index t (1 : Fin 2) * 1536 + 1 * q.val = q.val; rw [e1]; omega

/-- The second graph-convolution result's block at point t is rows 512t … of it. -/
theorem b_rows (c : Dev nD) (t : Fin cfg2.N) : Rows (rowAt t) (iblk2 V c 1 t : Mat 512 1536) (V c main_v27 : Mat 4096 1536) := fun p q => by
  obtain ⟨-, -, e0, e1, -⟩ := idx_facts t
  unfold iblk2
  rw [View.read_apply]
  show (V c main_v27 : Mat 4096 1536) _ = (V c main_v27 : Mat 4096 1536) _
  congr 1
  funext a
  apply Fin.ext
  match a with
  | ⟨0, _⟩ => show win2_1.index t (0 : Fin 2) * 512 + 1 * p.val = t.val * 512 + p.val; rw [e0]; omega
  | ⟨1, _⟩ => show win2_1.index t (1 : Fin 2) * 1536 + 1 * q.val = q.val; rw [e1]; omega

/-! Each resident window's one block is its whole array. -/

theorem w1top_whole (c : Dev nD) (t : Fin cfg2.N) : (iblk2 V c 2 t : Mat 1536 512) = (V c main_v29 : Mat 1536 512) := by
  obtain ⟨-, -, -, -, e0, e1, -⟩ := idx_facts t
  funext y
  unfold iblk2
  rw [View.read_apply]
  show (V c main_v29 : Mat 1536 512) _ = (V c main_v29 : Mat 1536 512) y
  congr 1
  funext a
  apply Fin.ext
  match a with
  | ⟨0, _⟩ => show win2_2.index t (0 : Fin 2) * 1536 + 1 * (y 0).val = (y 0).val; rw [e0]; omega
  | ⟨1, _⟩ => show win2_2.index t (1 : Fin 2) * 512 + 1 * (y 1).val = (y 1).val; rw [e1]; omega

theorem w1bot_whole (c : Dev nD) (t : Fin cfg2.N) : (iblk2 V c 3 t : Mat 1536 512) = (V c main_v31 : Mat 1536 512) := by
  obtain ⟨-, -, -, -, -, -, e0, e1, -⟩ := idx_facts t
  funext y
  unfold iblk2
  rw [View.read_apply]
  show (V c main_v31 : Mat 1536 512) _ = (V c main_v31 : Mat 1536 512) y
  congr 1
  funext a
  apply Fin.ext
  match a with
  | ⟨0, _⟩ => show win2_3.index t (0 : Fin 2) * 1536 + 1 * (y 0).val = (y 0).val; rw [e0]; omega
  | ⟨1, _⟩ => show win2_3.index t (1 : Fin 2) * 512 + 1 * (y 1).val = (y 1).val; rw [e1]; omega

theorem b1_whole (c : Dev nD) (t : Fin cfg2.N) : (iblk2 V c 4 t : Mat 1 512) = (V c main_v35 : Mat 1 512) := by
  obtain ⟨-, -, -, -, -, -, -, -, e0, e1, -⟩ := idx_facts t
  funext y
  unfold iblk2
  rw [View.read_apply]
  show (V c main_v35 : Mat 1 512) _ = (V c main_v35 : Mat 1 512) y
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 512 + 1 * (y 1).val = (y 1).val; rw [e1]; omega

theorem w2_whole (c : Dev nD) (t : Fin cfg2.N) : (iblk2 V c 5 t : Mat 512 256) = (V c main_v32 : Mat 512 256) := by
  obtain ⟨-, -, -, -, -, -, -, -, -, -, e0, e1, -⟩ := idx_facts t
  funext y
  unfold iblk2
  rw [View.read_apply]
  show (V c main_v32 : Mat 512 256) _ = (V c main_v32 : Mat 512 256) y
  congr 1
  funext a
  apply Fin.ext
  match a with
  | ⟨0, _⟩ => show win2_5.index t (0 : Fin 2) * 512 + 1 * (y 0).val = (y 0).val; rw [e0]; omega
  | ⟨1, _⟩ => show win2_5.index t (1 : Fin 2) * 256 + 1 * (y 1).val = (y 1).val; rw [e1]; omega

theorem b2_whole (c : Dev nD) (t : Fin cfg2.N) : (iblk2 V c 6 t : Mat 1 256) = (V c main_v36 : Mat 1 256) := by
  obtain ⟨-, -, -, -, -, -, -, -, -, -, -, -, e0, e1, -⟩ := idx_facts t
  funext y
  unfold iblk2
  rw [View.read_apply]
  show (V c main_v36 : Mat 1 256) _ = (V c main_v36 : Mat 1 256) y
  congr 1
  funext a
  apply Fin.ext
  match a with
  | ⟨0, _⟩ => show win2_6.index t (0 : Fin 2) * 1 + 1 * (y 0).val = (y 0).val; rw [e0]; omega
  | ⟨1, _⟩ => show win2_6.index t (1 : Fin 2) * 256 + 1 * (y 1).val = (y 1).val; rw [e1]; omega

theorem w3_whole (c : Dev nD) (t : Fin cfg2.N) : (iblk2 V c 7 t : Mat 256 64) = (V c main_v33 : Mat 256 64) := by
  obtain ⟨-, -, -, -, -, -, -, -, -, -, -, -, -, -, e0, e1, -⟩ := idx_facts t
  funext y
  unfold iblk2
  rw [View.read_apply]
  show (V c main_v33 : Mat 256 64) _ = (V c main_v33 : Mat 256 64) y
  congr 1
  funext a
  apply Fin.ext
  match a with
  | ⟨0, _⟩ => show win2_7.index t (0 : Fin 2) * 256 + 1 * (y 0).val = (y 0).val; rw [e0]; omega
  | ⟨1, _⟩ => show win2_7.index t (1 : Fin 2) * 64 + 1 * (y 1).val = (y 1).val; rw [e1]; omega

theorem b3_whole (c : Dev nD) (t : Fin cfg2.N) : (iblk2 V c 8 t : Mat 1 64) = (V c main_v37 : Mat 1 64) := by
  obtain ⟨-, -, -, -, -, -, -, -, -, -, -, -, -, -, -, -, e0, e1, -⟩ := idx_facts t
  funext y
  unfold iblk2
  rw [View.read_apply]
  show (V c main_v37 : Mat 1 64) _ = (V c main_v37 : Mat 1 64) y
  congr 1
  funext a
  apply Fin.ext
  match a with
  | ⟨0, _⟩ => show win2_8.index t (0 : Fin 2) * 1 + 1 * (y 0).val = (y 0).val; rw [e0]; omega
  | ⟨1, _⟩ => show win2_8.index t (1 : Fin 2) * 64 + 1 * (y 1).val = (y 1).val; rw [e1]; omega

theorem w4_whole (c : Dev nD) (t : Fin cfg2.N) : (iblk2 V c 9 t : Mat 64 1) = (V c main_v34 : Mat 64 1) := by
  obtain ⟨-, -, -, -, -, -, -, -, -, -, -, -, -, -, -, -, -, -, e0, e1, -⟩ := idx_facts t
  funext y
  unfold iblk2
  rw [View.read_apply]
  show (V c main_v34 : Mat 64 1) _ = (V c main_v34 : Mat 64 1) y
  congr 1
  funext a
  apply Fin.ext
  match a with
  | ⟨0, _⟩ => show win2_9.index t (0 : Fin 2) * 64 + 1 * (y 0).val = (y 0).val; rw [e0]; omega
  | ⟨1, _⟩ => show win2_9.index t (1 : Fin 2) * 1 + 1 * (y 1).val = (y 1).val; rw [e1]; omega

theorem b4_whole (c : Dev nD) (t : Fin cfg2.N) : (iblk2 V c 10 t : Mat 1 1) = (V c main_v38 : Mat 1 1) := by
  obtain ⟨-, -, -, -, -, -, -, -, -, -, -, -, -, -, -, -, -, -, -, -, e0, e1, -⟩ := idx_facts t
  funext y
  unfold iblk2
  rw [View.read_apply]
  show (V c main_v38 : Mat 1 1) _ = (V c main_v38 : Mat 1 1) y
  congr 1
  funext a
  apply Fin.ext
  match a with
  | ⟨0, _⟩ => show win2_10.index t (0 : Fin 2) * 1 + 1 * (y 0).val = (y 0).val; rw [e0]; omega
  | ⟨1, _⟩ => show win2_10.index t (1 : Fin 2) * 1 + 1 * (y 1).val = (y 1).val; rw [e1]; omega

/-- What point t writes back is block t of the whole-array network. -/
theorem flushed_eq (c : Dev nD) (t : Fin cfg2.N) :
    (dat2 V c).flushed 11 t = ((cfg2.win 11).blk t).view.read (Elt Ideal) (G V c) := by
  show (cfg2.win 11).cut (grid2.coords t) ((dat2 V c).after 11 t) = _
  rw [after2_11]
  unfold out2_11
  rw [View.canon_unit_zero hz1]
  simp only [View.ld_unit_zero (S := S512x1536) hz, View.ld_unit_zero (S := S1536x512) hz, View.ld_unit_zero (S := S1x512) hz,
    View.ld_unit_zero (S := S512x256) hz, View.ld_unit_zero (S := S1x256) hz, View.ld_unit_zero (S := S256x64) hz,
    View.ld_unit_zero (S := S1x64) hz, View.ld_unit_zero (S := S64x1) hz, View.ld_unit_zero (S := S1x1) hz]
  rw [payload]
  funext j
  obtain ⟨p, rfl⟩ : ∃ p : Fin 512, j = ix1 p := ⟨j 0, eq_ix1 j⟩
  have e0 := (idx_facts t).2.2.2.2.2.2.2.2.2.2.2.2.2.2.2.2.2.2.2.2.2.2
  have hemb : ((cfg2.win 11).blk t).view.emb (ix1 p) = ix1 (rowAt t p) := by
    funext a
    apply Fin.ext
    match a with
    | ⟨0, _⟩ => show win2_11.index t (0 : Fin 1) * 512 + 1 * p.val = t.val * 512 + p.val; rw [e0]; omega
  show layers (M := 512) (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) (ix1 p)
    = G V c (((cfg2.win 11).blk t).view.emb (ix1 p))
  rw [hemb, w1top_whole V c t, w1bot_whole V c t, b1_whole V c t, w2_whole V c t, b2_whole V c t, w3_whole V c t,
    b3_whole V c t, w4_whole V c t, b4_whole V c t]
  exact affineCol_rows (Rows.dense (Rows.dense (Rows.pair (a_rows V c t) (b_rows V c t) _ _ _) _ _) _ _) _ _ p

/-- An index of the result is in point t's block iff it is in the block's range. -/
theorem mem_blk (t : Fin cfg2.N) (i : S4096.Idx) :
    i ∈ ((cfg2.win 11).blk t).view.set ↔ ∀ a : Fin 1, win2_11.index t a * S512.size a ≤ (i a).val ∧ (i a).val < win2_11.index t a * S512.size a + S512.size a := by
  show i ∈ ((View.whole main_v39).slice (win2_11.rect t)).set ↔ _
  rw [View.set_slice_whole, Rect.mem_set_unit]
  exact Iff.rfl

/-- Every index of the result is in the block of the point it falls in. -/
theorem cover (i : S4096.Idx) : ∃ t : Fin cfg2.N, (cfg2.win 11).flush t = true ∧ i ∈ ((cfg2.win 11).blk t).view.set := by
  have hi0 : (i 0).val < 4096 := (i 0).isLt
  refine ⟨⟨(i 0).val / 512, lt_of_lt_of_eq (by omega : (i 0).val / 512 < 8) N_2.symm⟩, flush2_11 _, ?_⟩
  have e0 := (idx_facts ⟨(i 0).val / 512, lt_of_lt_of_eq (by omega : (i 0).val / 512 < 8) N_2.symm⟩).2.2.2.2.2.2.2.2.2.2.2.2.2.2.2.2.2.2.2.2.2.2
  rw [mem_blk]
  intro a
  match a with
  | ⟨0, _⟩ => show win2_11.index _ (0 : Fin 1) * 512 ≤ (i 0).val ∧ (i 0).val < win2_11.index _ (0 : Fin 1) * 512 + 512; rw [e0]; show (i 0).val / 512 * 512 ≤ _ ∧ _ < (i 0).val / 512 * 512 + 512; omega

/-- The result vector after the call. -/
theorem final (c : Dev nD) : (dat2 V c).arrAt 11 cfg2.N = G V c :=
  (dat2 V c).arrAt_eq_of_cover 11 (G V c) (fun t _ => flushed_eq V c t) cover

end Cert.KernelIdeal.Mlp

end
-- ==== Proof.Network.lean ====
/-
  The network both programs compute, over the two aggregated neighbour sums: a graph-convolution layer per relation,
  max(agg·W_rel + x·W_root + b, 0); the two results side by side through the first dense layer, written as the sum of two
  products against the upper and lower rows of its weights; two more dense layers; a last affine layer of one column.
-/
import proofs.«176186_j38362647888477_1_alg».proof.Proof.LibDenseLayers

noncomputable section

namespace GraphNet

open Idealize.ShloMosaic Idealize.ShloMosaic.ValueIdx DenseLayers

/-- The score of each of the M pairs. -/
def score {M : ℕ} (aggj aggr xj xr : Mat M 1536) (wrelj wrootj wrelr wrootr : Mat 1536 1536) (bj br : Fin 1536 → EReal)
    (w1t w1b : Mat 1536 512) (b1 : Fin 512 → EReal) (w2 : Mat 512 256) (b2 : Fin 256 → EReal)
    (w3 : Mat 256 64) (b3 : Fin 64 → EReal) (w4 : Mat 64 1) (b4 : EReal) : (⟨1, ![M]⟩ : Shape).Idx → EReal :=
  affineCol (dense (dense (pair (pair aggj xj wrelj wrootj bj) (pair aggr xr wrelr wrootr br) w1t w1b b1) w2 b2) w3 b3) w4 b4

end GraphNet

end
-- ==== Proof.Fold.lean ====
/-
  The kernel program's result, read through its five segments: the result vector after the last call is the network's
  score over the two neighbour sums the first stretch of host operations computes.

  Nothing between a buffer's last writer and its reader writes it: the first stretch computes the neighbour sums, narrows the
  graph-convolution weights (the identity on extended reals) and reshapes the biases to rows; the two graph-convolution
  calls each write their own result array only; the second stretch cuts the first dense layer's weights into their upper and
  lower rows, narrows the other weights and reshapes the biases to rows.
-/
import proofs.«176186_j38362647888477_1_alg».proof.Proof.Gen.KernelIdeal.Frame
import proofs.«176186_j38362647888477_1_alg».proof.Proof.Conv0
import proofs.«176186_j38362647888477_1_alg».proof.Proof.Conv1
import proofs.«176186_j38362647888477_1_alg».proof.Proof.Mlp
import proofs.«176186_j38362647888477_1_alg».proof.Proof.Network
import Idealize.ShloMosaic.Lib.StableHlo.Run
import Idealize.ShloMosaic.Lib.ValueLayout

set_option maxRecDepth 16384

noncomputable section

namespace Cert.KernelIdeal

open Idealize.ShloMosaic Cert.KernelIdeal.Facts₀

/-- The sum, for each destination row, of the source rows its edges name: the rows of x gathered at src (an index below
    zero counted from the end), added into a zero matrix at the rows dst names. -/
def neighbourSum {F : FTy → Type} [FloatOps F] [Facts₀] (x : (⟨S50000x1536, .f32⟩ : BufTy).Contents (Elt F))
    (src dst : (⟨S65536, .i32⟩ : BufTy).Contents (Elt F)) : (⟨S4096x1536, .f32⟩ : BufTy).Contents (Elt F) :=
  Host.scatterAdd scatter_S4096x1536_S65536x1_S65536x1536_1_0_0_1
    (broadcastInDim S4096x1536 ![] bcast_S_S4096x1536 (constant S_ .f32 0x00000000#32))
    (broadcastInDim S65536x1 ![0] bcast_S65536_S65536x1_0 dst)
    (Host.gather gather_S50000x1536_S65536x1_S65536x1536_1_0_n_n_0_1_11536 x
      (broadcastInDim S65536x1 ![0] bcast_S65536_S65536x1_0
        (select (cmpi .slt src (broadcastInDim S65536 ![] bcast_S_S65536 (constantI S_ 32 0#32)))
          (addi src (broadcastInDim S65536 ![] bcast_S_S65536 (constantI S_ 32 50000#32))) src)))

end Cert.KernelIdeal

namespace Cert.KernelIdeal.Fold

open Cert.KernelIdeal Cert.KernelIdeal.Gen
open Idealize.ShloMosaic Idealize.ShloMosaic.TcCoe Idealize.SL.Sem Idealize.ShloMosaic.ValueIdx DenseLayers

variable (m : (ℓ : Loc nD τ sig) → Buf (Elt Ideal) ℓ) (ρ : Dev nD → PrngReg)

/-- No operation of a stretch writes the buffer: each operation writes its one result buffer, another reference. -/
local macro "no_writer" : tactic => `(tactic| (
  refine List.forall_iff_forall_mem.mp ?_
  simp only [hostOps0, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- A buffer the first stretch does not write holds, when the first call is entered, what it held at launch. -/
theorem W1_launch (c : Dev nD) (b : Ref sig .tc)
    (h0 : ∀ op ∈ (hostOps0 : List (HloOp τ sig (Elt Ideal))), (Proc.devRef .tc b : DevRef τ sig) ∉ op.writes) :
    W1 m ρ c (Proc.devRef .tc b) = m ((c : Thread nD τ).loc b) :=
  (StableHlo.after_of_forall_not_mem (b := Proc.devRef .tc b) _ _ h0).trans rfl

/-- A buffer the first stretch does not write and no window of the first call names holds the same when the second call is entered. -/
theorem W2_launch (c : Dev nD) (b : Ref sig .tc) (h1 : ∀ w, Pipeline.arrRef spec0 w ≠ b)
    (h0 : ∀ op ∈ (hostOps0 : List (HloOp τ sig (Elt Ideal))), (Proc.devRef .tc b : DevRef τ sig) ∉ op.writes) :
    W2 m ρ c (Proc.devRef .tc b) = m ((c : Thread nD τ).loc b) :=
  (W2_of_ne m ρ c b h1).trans (W1_launch m ρ c b h0)

/-- And the same after the second call, for a buffer none of its windows names either. -/
theorem W3_launch (c : Dev nD) (b : Ref sig .tc) (h2 : ∀ w, Pipeline.arrRef spec1 w ≠ b) (h1 : ∀ w, Pipeline.arrRef spec0 w ≠ b)
    (h0 : ∀ op ∈ (hostOps0 : List (HloOp τ sig (Elt Ideal))), (Proc.devRef .tc b : DevRef τ sig) ∉ op.writes) :
    W3 m ρ c (Proc.devRef .tc b) = m ((c : Thread nD τ).loc b) :=
  (W3_of_ne m ρ c b h2).trans (W2_launch m ρ c b h1 h0)

/-! ## What the first stretch leaves in the buffers the graph-convolution calls read -/

theorem W1_v9 (c : Dev nD) : W1 m ρ c (Proc.devRef .tc main_v9) = neighbourSum (m ((c : Thread nD τ).loc main_arg0)) (m ((c : Thread nD τ).loc main_arg3)) (m ((c : Thread nD τ).loc main_arg4)) := by
  show StableHlo.after hostOps0 (W0 m ρ c) (Proc.devRef .tc main_v9) = _
  after_results
  rfl

theorem W1_v19 (c : Dev nD) : W1 m ρ c (Proc.devRef .tc main_v19) = neighbourSum (m ((c : Thread nD τ).loc main_arg0)) (m ((c : Thread nD τ).loc main_arg5)) (m ((c : Thread nD τ).loc main_arg6)) := by
  show StableHlo.after hostOps0 (W0 m ρ c) (Proc.devRef .tc main_v19) = _
  after_results
  rfl

theorem W1_v20 (c : Dev nD) : (W1 m ρ c (Proc.devRef .tc main_v20) : Mat 1536 1536) = (m ((c : Thread nD τ).loc main_arg7) : Mat 1536 1536) := by
  show StableHlo.after hostOps0 (W0 m ρ c) (Proc.devRef .tc main_v20) = _
  after_results
  rfl

theorem W1_v21 (c : Dev nD) : (W1 m ρ c (Proc.devRef .tc main_v21) : Mat 1536 1536) = (m ((c : Thread nD τ).loc main_arg9) : Mat 1536 1536) := by
  show StableHlo.after hostOps0 (W0 m ρ c) (Proc.devRef .tc main_v21) = _
  after_results
  rfl

theorem W1_v22 (c : Dev nD) : (W1 m ρ c (Proc.devRef .tc main_v22) : Mat 1536 1536) = (m ((c : Thread nD τ).loc main_arg10) : Mat 1536 1536) := by
  show StableHlo.after hostOps0 (W0 m ρ c) (Proc.devRef .tc main_v22) = _
  after_results
  rfl

theorem W1_v23 (c : Dev nD) : (W1 m ρ c (Proc.devRef .tc main_v23) : Mat 1536 1536) = (m ((c : Thread nD τ).loc main_arg12) : Mat 1536 1536) := by
  show StableHlo.after hostOps0 (W0 m ρ c) (Proc.devRef .tc main_v23) = _
  after_results
  rfl

theorem W1_v24 (c : Dev nD) : (W1 m ρ c (Proc.devRef .tc main_v24) : Mat 1 1536)
    = shapeCast S1x1536 (m ((c : Thread nD τ).loc main_arg8) : (⟨1, ![1536]⟩ : Shape).Idx → EReal) shapeCasts_S1536_S1x1536 := by
  show StableHlo.after hostOps0 (W0 m ρ c) (Proc.devRef .tc main_v24) = _
  after_results
  rfl

theorem W1_v25 (c : Dev nD) : (W1 m ρ c (Proc.devRef .tc main_v25) : Mat 1 1536)
    = shapeCast S1x1536 (m ((c : Thread nD τ).loc main_arg11) : (⟨1, ![1536]⟩ : Shape).Idx → EReal) shapeCasts_S1536_S1x1536 := by
  show StableHlo.after hostOps0 (W0 m ρ c) (Proc.devRef .tc main_v25) = _
  after_results
  rfl

/-- A reshaped bias vector read as a row. -/
theorem row_of_reshape {n : ℕ} (h : (⟨1, ![n]⟩ : Shape).ShapeCasts ⟨2, ![1, n]⟩) (b : (⟨1, ![n]⟩ : Shape).Idx → EReal) :
    (fun j : Fin n => shapeCast ⟨2, ![1, n]⟩ b h (ix2 (0 : Fin 1) j)) = fun j => b (ix1 j) :=
  funext fun j => shapeCast_a_1a_apply b h 0 j

/-! ## The two graph-convolution results -/

/-- The first call's result array when the last call is entered. -/
theorem conv_job (c : Dev nD) :
    (V4 m ρ c main_v26 : Mat 4096 1536)
      = pair (M := 4096) (k := 1536) (k' := 1536) (n := 1536) (neighbourSum (m ((c : Thread nD τ).loc main_arg0)) (m ((c : Thread nD τ).loc main_arg3)) (m ((c : Thread nD τ).loc main_arg4))) (m ((c : Thread nD τ).loc main_arg1))
          (m ((c : Thread nD τ).loc main_arg7)) (m ((c : Thread nD τ).loc main_arg9)) (fun j => (m ((c : Thread nD τ).loc main_arg8) : (⟨1, ![1536]⟩ : Shape).Idx → EReal) (ix1 j)) := by
  have e : (V4 m ρ c main_v26 : Mat 4096 1536) = Conv0.G (V1 m ρ) c :=
    calc W4 m ρ c (Proc.devRef .tc main_v26)
      _ = W3 m ρ c (Proc.devRef .tc main_v26) := StableHlo.after_of_forall_not_mem (b := Proc.devRef .tc main_v26) _ _ (by no_writer)
      _ = W2 m ρ c (Proc.devRef .tc main_v26) := W3_of_ne m ρ c main_v26 (by decide)
      _ = (dat0 (V1 m ρ) c).arrAt 5 cfg0.N := W2_arr m ρ c 5
      _ = Conv0.G (V1 m ρ) c := Conv0.final (V1 m ρ) c
  rw [e]
  show pair (M := 4096) (k := 1536) (k' := 1536) (n := 1536) (W1 m ρ c (Proc.devRef .tc main_v9)) (W1 m ρ c (Proc.devRef .tc main_arg1))
    (W1 m ρ c (Proc.devRef .tc main_v20)) (W1 m ρ c (Proc.devRef .tc main_v21))
    (fun j => (W1 m ρ c (Proc.devRef .tc main_v24) : Mat 1 1536) (ix2 (0 : Fin 1) j)) = _
  rw [W1_v9, W1_v20, W1_v21, W1_v24, W1_launch m ρ c main_arg1 (by no_writer), row_of_reshape]

/-- The second call's result array when the last call is entered. -/
theorem conv_resume (c : Dev nD) :
    (V4 m ρ c main_v27 : Mat 4096 1536)
      = pair (M := 4096) (k := 1536) (k' := 1536) (n := 1536) (neighbourSum (m ((c : Thread nD τ).loc main_arg0)) (m ((c : Thread nD τ).loc main_arg5)) (m ((c : Thread nD τ).loc main_arg6))) (m ((c : Thread nD τ).loc main_arg2))
          (m ((c : Thread nD τ).loc main_arg10)) (m ((c : Thread nD τ).loc main_arg12)) (fun j => (m ((c : Thread nD τ).loc main_arg11) : (⟨1, ![1536]⟩ : Shape).Idx → EReal) (ix1 j)) := by
  have e : (V4 m ρ c main_v27 : Mat 4096 1536) = Conv1.G (V2 m ρ) c :=
    calc W4 m ρ c (Proc.devRef .tc main_v27)
      _ = W3 m ρ c (Proc.devRef .tc main_v27) := StableHlo.after_of_forall_not_mem (b := Proc.devRef .tc main_v27) _ _ (by no_writer)
      _ = (dat1 (V2 m ρ) c).arrAt 5 cfg1.N := W3_arr m ρ c 5
      _ = Conv1.G (V2 m ρ) c := Conv1.final (V2 m ρ) c
  rw [e]
  show pair (M := 4096) (k := 1536) (k' := 1536) (n := 1536) (W2 m ρ c (Proc.devRef .tc main_v19)) (W2 m ρ c (Proc.devRef .tc main_arg2))
    (W2 m ρ c (Proc.devRef .tc main_v22)) (W2 m ρ c (Proc.devRef .tc main_v23))
    (fun j => (W2 m ρ c (Proc.devRef .tc main_v25) : Mat 1 1536) (ix2 (0 : Fin 1) j)) = _
  rw [W2_of_ne m ρ c main_v19 (by decide), W2_of_ne m ρ c main_v22 (by decide), W2_of_ne m ρ c main_v23 (by decide),
    W2_of_ne m ρ c main_v25 (by decide), W1_v19, W1_v22, W1_v23, W1_v25,
    W2_launch m ρ c main_arg2 (by decide) (by no_writer), row_of_reshape]

/-! ## What the second stretch leaves in the buffers the last call reads -/

theorem W4_v29 (c : Dev nD) : (W4 m ρ c (Proc.devRef .tc main_v29) : Mat 1536 512)
    = extractStridedSlice S1536x512 ![0, 0] (m ((c : Thread nD τ).loc main_arg13) : Mat 3072 512) slices_S3072x512_S1536x512_0_0 := by
  show StableHlo.after hostOps2 (W3 m ρ c) (Proc.devRef .tc main_v29) = _
  after_results
  rw [W3_launch m ρ c main_arg13 (by decide) (by decide) (by no_writer)]
  rfl

theorem W4_v31 (c : Dev nD) : (W4 m ρ c (Proc.devRef .tc main_v31) : Mat 1536 512)
    = extractStridedSlice S1536x512 ![1536, 0] (m ((c : Thread nD τ).loc main_arg13) : Mat 3072 512) slices_S3072x512_S1536x512_1536_0 := by
  show StableHlo.after hostOps2 (W3 m ρ c) (Proc.devRef .tc main_v31) = _
  after_results
  rw [W3_launch m ρ c main_arg13 (by decide) (by decide) (by no_writer)]
  rfl

theorem W4_v32 (c : Dev nD) : (W4 m ρ c (Proc.devRef .tc main_v32) : Mat 512 256) = (m ((c : Thread nD τ).loc main_arg15) : Mat 512 256) := by
  show StableHlo.after hostOps2 (W3 m ρ c) (Proc.devRef .tc main_v32) = _
  after_results
  rw [W3_launch m ρ c main_arg15 (by decide) (by decide) (by no_writer)]
  rfl

theorem W4_v33 (c : Dev nD) : (W4 m ρ c (Proc.devRef .tc main_v33) : Mat 256 64) = (m ((c : Thread nD τ).loc main_arg17) : Mat 256 64) := by
  show StableHlo.after hostOps2 (W3 m ρ c) (Proc.devRef .tc main_v33) = _
  after_results
  rw [W3_launch m ρ c main_arg17 (by decide) (by decide) (by no_writer)]
  rfl

theorem W4_v34 (c : Dev nD) : (W4 m ρ c (Proc.devRef .tc main_v34) : Mat 64 1) = (m ((c : Thread nD τ).loc main_arg19) : Mat 64 1) := by
  show StableHlo.after hostOps2 (W3 m ρ c) (Proc.devRef .tc main_v34) = _
  after_results
  rw [W3_launch m ρ c main_arg19 (by decide) (by decide) (by no_writer)]
  rfl

theorem W4_v35 (c : Dev nD) : (W4 m ρ c (Proc.devRef .tc main_v35) : Mat 1 512)
    = shapeCast S1x512 (m ((c : Thread nD τ).loc main_arg14) : (⟨1, ![512]⟩ : Shape).Idx → EReal) shapeCasts_S512_S1x512 := by
  show StableHlo.after hostOps2 (W3 m ρ c) (Proc.devRef .tc main_v35) = _
  after_results
  rw [W3_launch m ρ c main_arg14 (by decide) (by decide) (by no_writer)]
  rfl

theorem W4_v36 (c : Dev nD) : (W4 m ρ c (Proc.devRef .tc main_v36) : Mat 1 256)
    = shapeCast S1x256 (m ((c : Thread nD τ).loc main_arg16) : (⟨1, ![256]⟩ : Shape).Idx → EReal) shapeCasts_S256_S1x256 := by
  show StableHlo.after hostOps2 (W3 m ρ c) (Proc.devRef .tc main_v36) = _
  after_results
  rw [W3_launch m ρ c main_arg16 (by decide) (by decide) (by no_writer)]
  rfl

theorem W4_v37 (c : Dev nD) : (W4 m ρ c (Proc.devRef .tc main_v37) : Mat 1 64)
    = shapeCast S1x64 (m ((c : Thread nD τ).loc main_arg18) : (⟨1, ![64]⟩ : Shape).Idx → EReal) shapeCasts_S64_S1x64 := by
  show StableHlo.after hostOps2 (W3 m ρ c) (Proc.devRef .tc main_v37) = _
  after_results
  rw [W3_launch m ρ c main_arg18 (by decide) (by decide) (by no_writer)]
  rfl

theorem W4_v38 (c : Dev nD) : (W4 m ρ c (Proc.devRef .tc main_v38) : Mat 1 1)
    = shapeCast S1x1 (m ((c : Thread nD τ).loc main_arg20) : (⟨1, ![1]⟩ : Shape).Idx → EReal) shapeCasts_S1_S1x1 := by
  show StableHlo.after hostOps2 (W3 m ρ c) (Proc.devRef .tc main_v38) = _
  after_results
  rw [W3_launch m ρ c main_arg20 (by decide) (by decide) (by no_writer)]
  rfl

/-! ## The result -/

/-- The network's score over the launch contents of the arguments. -/
abbrev score_of (c : Dev nD) : (⟨1, ![4096]⟩ : Shape).Idx → EReal :=
  GraphNet.score (M := 4096) (neighbourSum (m ((c : Thread nD τ).loc main_arg0)) (m ((c : Thread nD τ).loc main_arg3)) (m ((c : Thread nD τ).loc main_arg4))) (neighbourSum (m ((c : Thread nD τ).loc main_arg0)) (m ((c : Thread nD τ).loc main_arg5)) (m ((c : Thread nD τ).loc main_arg6)))
    (m ((c : Thread nD τ).loc main_arg1)) (m ((c : Thread nD τ).loc main_arg2)) (m ((c : Thread nD τ).loc main_arg7)) (m ((c : Thread nD τ).loc main_arg9)) (m ((c : Thread nD τ).loc main_arg10)) (m ((c : Thread nD τ).loc main_arg12))
    (fun j => (m ((c : Thread nD τ).loc main_arg8) : (⟨1, ![1536]⟩ : Shape).Idx → EReal) (ix1 j))
    (fun j => (m ((c : Thread nD τ).loc main_arg11) : (⟨1, ![1536]⟩ : Shape).Idx → EReal) (ix1 j))
    (extractStridedSlice S1536x512 ![0, 0] (m ((c : Thread nD τ).loc main_arg13) : Mat 3072 512) slices_S3072x512_S1536x512_0_0)
    (extractStridedSlice S1536x512 ![1536, 0] (m ((c : Thread nD τ).loc main_arg13) : Mat 3072 512) slices_S3072x512_S1536x512_1536_0)
    (fun j => (m ((c : Thread nD τ).loc main_arg14) : (⟨1, ![512]⟩ : Shape).Idx → EReal) (ix1 j)) (m ((c : Thread nD τ).loc main_arg15))
    (fun j => (m ((c : Thread nD τ).loc main_arg16) : (⟨1, ![256]⟩ : Shape).Idx → EReal) (ix1 j)) (m ((c : Thread nD τ).loc main_arg17))
    (fun j => (m ((c : Thread nD τ).loc main_arg18) : (⟨1, ![64]⟩ : Shape).Idx → EReal) (ix1 j)) (m ((c : Thread nD τ).loc main_arg19))
    ((m ((c : Thread nD τ).loc main_arg20) : (⟨1, ![1]⟩ : Shape).Idx → EReal) (ix1 (0 : Fin 1)))

/-- The result vector after the last call is the network's score over the two neighbour sums. -/
theorem result_eq (c : Dev nD) : W5 m ρ c (Proc.devRef .tc main_v39) = score_of m c := by
  have e : W5 m ρ c (Proc.devRef .tc main_v39) = Mlp.G (V4 m ρ) c := (W5_arr m ρ c 11).trans (Mlp.final (V4 m ρ) c)
  rw [e]
  show Mlp.layers (M := 4096) (V4 m ρ c main_v26) (V4 m ρ c main_v27) (W4 m ρ c (Proc.devRef .tc main_v29)) (W4 m ρ c (Proc.devRef .tc main_v31))
    (W4 m ρ c (Proc.devRef .tc main_v35)) (W4 m ρ c (Proc.devRef .tc main_v32)) (W4 m ρ c (Proc.devRef .tc main_v36))
    (W4 m ρ c (Proc.devRef .tc main_v33)) (W4 m ρ c (Proc.devRef .tc main_v37)) (W4 m ρ c (Proc.devRef .tc main_v34))
    (W4 m ρ c (Proc.devRef .tc main_v38)) = _
  rw [conv_job, conv_resume, W4_v29, W4_v31, W4_v32, W4_v33, W4_v34, W4_v35, W4_v36, W4_v37, W4_v38]
  unfold Mlp.layers score_of GraphNet.score
  rw [row_of_reshape, row_of_reshape, row_of_reshape]
  rw [show (shapeCast S1x1 (m ((c : Thread nD τ).loc main_arg20)) shapeCasts_S1_S1x1 : Mat 1 1) (ix2 (0 : Fin 1) (0 : Fin 1)) = (m ((c : Thread nD τ).loc main_arg20) : (⟨1, ![1]⟩ : Shape).Idx → EReal) (ix1 (0 : Fin 1))
    from shapeCast_a_1a_apply _ _ 0 0]

end Cert.KernelIdeal.Fold

end
-- ==== Proof.RefValue.lean ====
/-
  The reference's result, read: its run's term is the network's score over the two aggregates. Each graph convolution is
  the host's two products with the bias between them (the same three summands in another order); the first dense layer is a
  product against the two results laid side by side, which splits into two products against the upper and lower rows of
  its weights.
-/
import proofs.«176186_j38362647888477_1_alg».proof.Proof.Gen.ReferenceIdeal.Run
import proofs.«176186_j38362647888477_1_alg».proof.Proof.Network

noncomputable section

namespace Cert.ReferenceIdeal.RefValue

open Cert.ReferenceIdeal Cert.ReferenceIdeal.Gen
open Idealize.ShloMosaic Idealize.ShloMosaic.TcCoe Idealize.ShloMosaic.ValueIdx DenseLayers

/-- The run's term over the two aggregates (any two arrays in their place) is the score. -/
theorem result_eq (hst : S3072x512.Slices ![0, 0] (⟨2, ![1536, 512]⟩ : Shape)) (hsb : S3072x512.Slices ![1536, 0] (⟨2, ![1536, 512]⟩ : Shape))
    (aggj aggr x1 x2 : FVec Ideal S4096x1536 .f32) (x7 x9 x10 x12 : FVec Ideal S1536x1536 .f32)
    (x8 x11 : FVec Ideal S1536 .f32) (x13 : FVec Ideal S3072x512 .f32) (x14 : FVec Ideal S512 .f32)
    (x15 : FVec Ideal S512x256 .f32) (x16 : FVec Ideal S256 .f32) (x17 : FVec Ideal S256x64 .f32) (x18 : FVec Ideal S64 .f32)
    (x19 : FVec Ideal S64x1 .f32) (x20 : FVec Ideal S1 .f32) :
    shapeCast S4096 (addf (Host.dotGeneral dot_S4096x64_S64x1_S4096x1_1_0_0_1_n_n none (maximumf (addf (Host.dotGeneral dot_S4096x256_S256x64_S4096x64_1_0_0_1_n_n none (maximumf (addf (Host.dotGeneral dot_S4096x512_S512x256_S4096x256_1_0_0_1_n_n none (maximumf (addf (Host.dotGeneral dot_S4096x3072_S3072x512_S4096x512_1_0_0_1_n_n none (concatenate S4096x3072 1 [⟨S4096x1536, (maximumf (addf (addf (Host.dotGeneral dot_S4096x1536_S1536x1536_S4096x1536_1_0_0_1_n_n none aggj x7) (broadcastInDim S4096x1536 ![0, 1] bcast_S1x1536_S4096x1536_0_1 (broadcastInDim S1x1536 ![1] bcast_S1536_S1x1536_1 x8))) (Host.dotGeneral dot_S4096x1536_S1536x1536_S4096x1536_1_0_0_1_n_n none x1 x9)) (broadcastInDim S4096x1536 ![] bcast_S_S4096x1536 (constant S_ .f32 0x00000000#32)))⟩, ⟨S4096x1536, (maximumf (addf (addf (Host.dotGeneral dot_S4096x1536_S1536x1536_S4096x1536_1_0_0_1_n_n none aggr x10) (broadcastInDim S4096x1536 ![0, 1] bcast_S1x1536_S4096x1536_0_1 (broadcastInDim S1x1536 ![1] bcast_S1536_S1x1536_1 x11))) (Host.dotGeneral dot_S4096x1536_S1536x1536_S4096x1536_1_0_0_1_n_n none x2 x12)) (broadcastInDim S4096x1536 ![] bcast_S_S4096x1536 (constant S_ .f32 0x00000000#32)))⟩] concatenates_S4096x1536_S4096x1536_S4096x3072_d1) x13) (broadcastInDim S4096x512 ![0, 1] bcast_S1x512_S4096x512_0_1 (broadcastInDim S1x512 ![1] bcast_S512_S1x512_1 x14))) (broadcastInDim S4096x512 ![] bcast_S_S4096x512 (constant S_ .f32 0x00000000#32))) x15) (broadcastInDim S4096x256 ![0, 1] bcast_S1x256_S4096x256_0_1 (broadcastInDim S1x256 ![1] bcast_S256_S1x256_1 x16))) (broadcastInDim S4096x256 ![] bcast_S_S4096x256 (constant S_ .f32 0x00000000#32))) x17) (broadcastInDim S4096x64 ![0, 1] bcast_S1x64_S4096x64_0_1 (broadcastInDim S1x64 ![1] bcast_S64_S1x64_1 x18))) (broadcastInDim S4096x64 ![] bcast_S_S4096x64 (constant S_ .f32 0x00000000#32))) x19) (broadcastInDim S4096x1 ![0, 1] bcast_S1x1_S4096x1_0_1 (broadcastInDim S1x1 ![1] bcast_S1_S1x1_1 x20))) shapeCasts_S4096x1_S4096
      = GraphNet.score (M := 4096) aggj aggr x1 x2 x7 x9 x10 x12 (fun j => x8 (ix1 j)) (fun j => x11 (ix1 j))
          (extractStridedSlice (⟨2, ![1536, 512]⟩ : Shape) ![0, 0] x13 hst) (extractStridedSlice (⟨2, ![1536, 512]⟩ : Shape) ![1536, 0] x13 hsb)
          (fun j => x14 (ix1 j)) x15 (fun j => x16 (ix1 j)) x17 (fun j => x18 (ix1 j)) x19 (x20 (ix1 (0 : Fin 1))) := by
  rw [hostPair_eq dot_S4096x1536_S1536x1536_S4096x1536_1_0_0_1_n_n rfl,
    hostPair_eq dot_S4096x1536_S1536x1536_S4096x1536_1_0_0_1_n_n rfl,
    hostCatPair_eq (p := 1536) (q := 1536) (t := 3072) rfl dot_S4096x3072_S3072x512_S4096x512_1_0_0_1_n_n rfl _ hst hsb,
    hostDense_eq dot_S4096x512_S512x256_S4096x256_1_0_0_1_n_n rfl,
    hostDense_eq dot_S4096x256_S256x64_S4096x64_1_0_0_1_n_n rfl,
    hostAffineCol_eq dot_S4096x64_S64x1_S4096x1_1_0_0_1_n_n rfl]
  rfl

end Cert.ReferenceIdeal.RefValue

end
-- ==== Proof.lean ====
/-
  The kernel and the reference compute one function of the arguments, at the exact instance.

  Both programs first form, for each of the two relations, the sum over each destination row of the source rows its edges
  name — the same host operations in both. The reference then takes, per relation, max(agg·W_rel + b + x·W_root, 0) over
  whole arrays, lays the two results side by side, and runs three dense layers with max(·, 0) and a last affine layer of one
  column. The kernel program takes max((agg·W_rel + x·W_root) + b, 0) in two calls that each sweep the rows in blocks of
  512, and the four layers in a third call over the same row blocks, the first layer as the sum of two products against the
  upper and lower 1536 rows of its weights instead of one product against the joined matrix. At the exact instance a
  narrowing of the float format is the identity and each product is a plain sum of products, so the two differ only in
  the order of three summands (addition of extended reals commutes and associates) and in a sum over 3072 coordinates
  split into two sums over 1536; neither needs the inputs to be finite. Every layer reads, in row r of its result, row r of
  its matrix operands only, so a block of rows of the whole-array layer is the layer of the blocks of rows.
-/
import proofs.«176186_j38362647888477_1_alg».proof.Defs
import proofs.«176186_j38362647888477_1_alg».proof.Proof.Gen.Kernel
import proofs.«176186_j38362647888477_1_alg».proof.Proof.Gen.Kernel.Skeleton
import proofs.«176186_j38362647888477_1_alg».proof.Proof.Gen.Kernel.Launch
import proofs.«176186_j38362647888477_1_alg».proof.Proof.Gen.Kernel.Points
import proofs.«176186_j38362647888477_1_alg».proof.Proof.Gen.Kernel.Frame
import proofs.«176186_j38362647888477_1_alg».proof.Proof.Gen.KernelIdeal
import proofs.«176186_j38362647888477_1_alg».proof.Proof.Gen.KernelIdeal.Skeleton
import proofs.«176186_j38362647888477_1_alg».proof.Proof.Gen.KernelIdeal.Launch
import proofs.«176186_j38362647888477_1_alg».proof.Proof.Gen.KernelIdeal.Points
import proofs.«176186_j38362647888477_1_alg».proof.Proof.Gen.KernelIdeal.Frame
import proofs.«176186_j38362647888477_1_alg».proof.Proof.Gen.ReferenceIdeal
import proofs.«176186_j38362647888477_1_alg».proof.Proof.Gen.ReferenceIdeal.Run
import proofs.«176186_j38362647888477_1_alg».proof.Proof.Gen.Pre_finite_inputs
import proofs.«176186_j38362647888477_1_alg».proof.Proof.KernelRun
import proofs.«176186_j38362647888477_1_alg».proof.Proof.Fold
import proofs.«176186_j38362647888477_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_kernel : Cert.frame_Kernel := fun m ρ _ => Cert.Kernel.Gen.frame m ρ

/-- So does its reading at the exact instance. -/
theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The neighbour sum is the same host operations in both programs. -/
theorem neighbourSum_eq (x : FVec Ideal Cert.ReferenceIdeal.S50000x1536 .f32) (src dst : IVec Cert.ReferenceIdeal.S65536 32) :
    Host.scatterAdd Cert.ReferenceIdeal.scatter_S4096x1536_S65536x1_S65536x1536_1_0_0_1
      (broadcastInDim Cert.ReferenceIdeal.S4096x1536 ![] Cert.ReferenceIdeal.Facts₀.bcast_S_S4096x1536 (constant Cert.ReferenceIdeal.S_ .f32 0x00000000#32))
      (broadcastInDim Cert.ReferenceIdeal.S65536x1 ![0] Cert.ReferenceIdeal.Facts₀.bcast_S65536_S65536x1_0 dst)
      (Host.gather Cert.ReferenceIdeal.gather_S50000x1536_S65536x1_S65536x1536_1_0_n_n_0_1_11536 x
        (broadcastInDim Cert.ReferenceIdeal.S65536x1 ![0] Cert.ReferenceIdeal.Facts₀.bcast_S65536_S65536x1_0
          (select (cmpi .slt src (broadcastInDim Cert.ReferenceIdeal.S65536 ![] Cert.ReferenceIdeal.Facts₀.bcast_S_S65536 (constantI Cert.ReferenceIdeal.S_ 32 0#32)))
            (addi src (broadcastInDim Cert.ReferenceIdeal.S65536 ![] Cert.ReferenceIdeal.Facts₀.bcast_S_S65536 (constantI Cert.ReferenceIdeal.S_ 32 50000#32))) src)))
      = Cert.KernelIdeal.neighbourSum (F := Ideal) x src dst := rfl

/-- From memories that agree on the arguments both programs end with the network's score over the two neighbour sums. -/
theorem algebraic : Cert.algebraic_KernelIdeal_ReferenceIdeal := by
  intro m g m' g' _ hagree
  refine ⟨fun c => Cert.KernelIdeal.Fold.score_of m c, ?_, ?_⟩
  · exact (θ_run Cert.KernelIdeal.defs _ _).mono
      (fun r h c => ⟨(h c).1.trans (Cert.KernelIdeal.Fold.result_eq m g c), (h c).2⟩) (Cert.KernelIdeal.GenRun.run_value m g)
  · refine (θ_run Cert.ReferenceIdeal.defs _ _).mono (fun r h c => ⟨(h c).1.trans ?_, (h c).2⟩)
      (Cert.ReferenceIdeal.Value.run (F := Ideal) m' g')
    obtain ⟨e0, e1, e2, e3, e4, e5, e6, e7, e8, e9, e10, e11, e12, e13, e14, e15, e16, e17, e18, e19, e20⟩ := hagree c
    refine (Cert.ReferenceIdeal.RefValue.result_eq Cert.KernelIdeal.Gen.slices_S3072x512_S1536x512_0_0
      Cert.KernelIdeal.Gen.slices_S3072x512_S1536x512_1536_0 _ _ _ _ _ _ _ _ _ _ _ _ _ _ _ _ _ _).trans ?_
    rw [e0, e1, e2, e3, e4, e5, e6, e7, e8, e9, e10, e11, e12, e13, e14, e15, e16, e17, e18, e19, e20,
      neighbourSum_eq, neighbourSum_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
